-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8192x16 : Shape := ⟨2, ![8192, 16]⟩
abbrev S8192 : Shape := ⟨1, ![8192]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg3 main_v16
  let main_c_6 : IVec S_ 32 := constantI S_ 32 8192#32
  let main_v18 : IVec S8192 32 := broadcastInDim S8192 ![] bcast_S_S8192 main_c_6
  let main_v19 : IVec S8192 1 := cmpi .slt main_arg3 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S2048x8192 .f32) (main_arg1 : FVec F S8192x16 .f32) (main_arg2 : IVec S8192 32) (main_arg3 : IVec S8192 32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_c_2 : IVec S_ 32 := constantI S_ 32 4294959104#32
  let main_v9 : IVec S8192 32 := broadcastInDim S8192 ![] bcast_S_S8192 main_c_2
  let main_v10 : IVec S8192 1 := cmpi .sge main_arg2 main_v9
  let main_c_3 : IVec S_ 32 := constantI S_ 32 8192#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_c_5 : IVec S_ 32 := constantI S_ 32 4294959104#32
  fn_part1 (F := F) main_arg3 main_v15 main_c_5
-- ==== Kernel.lean ====
abbrev S2048x8192 : Shape := ⟨2, ![2048, 8192]⟩
abbrev S8192x16 : Shape := ⟨2, ![8192, 16]⟩
abbrev S8192 : Shape := ⟨1, ![8192]⟩
abbrev S16x4 : Shape := ⟨2, ![16, 4]⟩
abbrev S8192x2048 : Shape := ⟨2, ![8192, 2048]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x4 : Shape := ⟨2, ![8192, 4]⟩
abbrev S1024x512 : Shape := ⟨2, ![1024, 512]⟩
abbrev S1024x4 : Shape := ⟨2, ![1024, 4]⟩
abbrev S512x1024 : Shape := ⟨2, ![512, 1024]⟩
abbrev S1024x1 : Shape := ⟨2, ![1024, 1]⟩

abbrev nBuf : Space → Nat
  | .hbm => 68
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x16, .f32⟩
  | .hbm, ⟨2, _⟩ => ⟨S8192, .i32⟩
  | .hbm, ⟨3, _⟩ => ⟨S8192, .i32⟩
  | .hbm, ⟨4, _⟩ => ⟨S16x4, .f32⟩
  | .hbm, ⟨5, _⟩ => ⟨S8192x2048, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x2048, .f32⟩
  | .hbm, ⟨25, _⟩ => ⟨S8192x2048, .i1⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S1x1, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i1⟩
  | .hbm, ⟨46, _⟩ => ⟨S8192, .i1⟩
  | .hbm, ⟨47, _⟩ => ⟨S8192x2048, .f32⟩
  | .hbm, ⟨48, _⟩ => ⟨S8192x2048, .i1⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x16, .f32⟩
  | .hbm, ⟨65, _⟩ => ⟨S8192x16, .f32⟩
  | .hbm, ⟨66, _⟩ => ⟨S8192x4, .f32⟩
  | .hbm, ⟨67, _⟩ => ⟨S2048x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x4, .f32⟩
  | .local _ .vmem, ⟨5, _⟩ => ⟨S1024x4, .f32⟩
  | .local _ .vmem, ⟨6, _⟩ => ⟨S512x1024, .f32⟩
  | .local _ .vmem, ⟨7, _⟩ => ⟨S512x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v2 : Ref sig .tc := ⟨.hbm, 51, rfl⟩
abbrev main_cst_0 : Ref sig .tc := ⟨.hbm, 52, rfl⟩
abbrev main_v3 : Ref sig .tc := ⟨.hbm, 53, rfl⟩
abbrev main_cst_1 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_2 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x8192_S8192x2048_1_0 : S2048x8192.Transposes [1, 0] S8192x2048
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x2048_0 : S8192.BroadcastsInDim S8192x2048 (![0] : Fin 1 → Fin S8192x2048.rank)
  bcast_S_S8192x2048 : S_.BroadcastsInDim S8192x2048 (![] : Fin 0 → Fin S8192x2048.rank)
  reducesTo_S8192x16_S8192_d1 : S8192x16.ReducesTo [1] S8192
  bcast_S8192x1_S8192x16_0_1 : S8192x1.BroadcastsInDim S8192x16 (![0, 1] : Fin 2 → Fin S8192x16.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  broadcasts_S1024x1_S1024x512 : S1024x1.Broadcasts S1024x512
  transposes_S1024x512_p1_0_S512x1024 : S1024x512.Transposes [1, 0] S512x1024
  inb_S512x1024_S512x1024_0_0 : ∀ a, (![0, 0] : Fin 2 → Nat) a + S512x1024.size a ≤ S512x1024.size a
  h_S512x1024 : 0 < S512x1024.numel
  gather_S8192x2048_S8192x1_S8192x2048_1_0_n_n_0_1_12048_wf : GatherDims.WF S8192x2048 S8192x1 S8192x2048 [1] [0] [] [0] [] 1 ![1, 2048]
  dot_S8192x16_S16x4_S8192x4_1_0_0_1_n_n_wf : DotDims.WF S8192x16 S16x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x2048.size a
  hwx0_1 : ∀ i : grid0.Coords, EltTy.bits .f32 = 32 ∨ (Rect.block (s := S8192x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S8192x4.size a
  hwx0_2 : ∀ i : grid0.Coords, EltTy.bits .f32 = 32 ∨ (Rect.block (s := S8192x4) S1024x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x8192.size a
  hwx0_3 : ∀ i : grid0.Coords, EltTy.bits .f32 = 32 ∨ (Rect.block (s := S2048x8192) S512x1024.size (cc0_transform_3 i) (hinb0_3 i)).WholeWords (EltTy.packing .f32)

variable [Facts₀]

def gather_S8192x2048_S8192x1_S8192x2048_1_0_n_n_0_1_12048 : GatherDims S8192x2048 S8192x1 S8192x2048 where
  offsetDims := [1]
  collapsedSliceDims := [0]
  operandBatchingDims := []
  startIndicesBatchingDims := []
  startIndexMap := [0]
  indexVectorDim := 1
  sliceSizes := ![1, 2048]
  wf := gather_S8192x2048_S8192x1_S8192x2048_1_0_n_n_0_1_12048_wf
def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S8192x16 : Shape := ⟨2, ![8192, 16]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 178
  | .vmem => 0
  | .smem => 0
  | _ => 0

abbrev hbmTy0_0 (i : Nat) : BufTy := match i % 128 with
  | 0 => ⟨S2048x8192, .f32⟩
  | 1 => ⟨S8192x16, .f32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S2048x8192, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S2048x8192, .f32⟩
  | 22 => ⟨S_, .f32⟩
  | 23 => ⟨S8192, .f32⟩
  | 24 => ⟨S_, .f32⟩
  | 25 => ⟨S8192, .f32⟩
  | 26 => ⟨S8192, .f32⟩
  | 27 => ⟨S8192x1, .f32⟩
  | 28 => ⟨S8192x16, .f32⟩
  | 29 => ⟨S8192x16, .f32⟩
  | 30 => ⟨S8192x16, .f32⟩
  | 31 => ⟨S_, .f32⟩
  | 32 => ⟨S8192, .f32⟩
  | 33 => ⟨S8192x1, .f32⟩
  | 34 => ⟨S8192x16, .f32⟩
  | 35 => ⟨S8192x16, .f32⟩
  | 36 => ⟨S2048x8192, .f32⟩
  | 37 => ⟨S_, .f32⟩
  | 38 => ⟨S2048x8192, .f32⟩
  | 39 => ⟨S2048x8192, .f32⟩
  | 40 => ⟨S2048x8192, .f32⟩
  | 41 => ⟨S2048x8192, .f32⟩
  | 42 => ⟨S_, .f32⟩
  | 43 => ⟨S2048x8192, .f32⟩
  | 44 => ⟨S2048x8192, .f32⟩
  | 45 => ⟨S2048x8192, .f32⟩
  | 46 => ⟨S2048x8192, .f32⟩
  | 47 => ⟨S2048x8192, .f32⟩
  | 48 => ⟨S2048x8192, .f32⟩
  | 49 => ⟨S2048x8192, .f32⟩
  | 50 => ⟨S_, .f32⟩
  | 51 => ⟨S2048x8192, .f32⟩
  | 52 => ⟨S2048x8192, .f32⟩
  | 53 => ⟨S2048x8192, .f32⟩
  | 54 => ⟨S_, .f32⟩
  | 55 => ⟨S2048x8192, .f32⟩
  | 56 => ⟨S2048x8192, .f32⟩
  | 57 => ⟨S2048x8192, .f32⟩
  | 58 => ⟨S_, .f32⟩
  | 59 => ⟨S2048x8192, .f32⟩
  | 60 => ⟨S2048x8192, .f32⟩
  | 61 => ⟨S_, .f32⟩
  | 62 => ⟨S2048x8192, .f32⟩
  | 63 => ⟨S2048x8192, .f32⟩
  | 64 => ⟨S_, .f32⟩
  | 65 => ⟨S2048x8192, .f32⟩
  | 66 => ⟨S2048x8192, .f32⟩
  | 67 => ⟨S2048x8192, .f32⟩
  | 68 => ⟨S_, .f32⟩
  | 69 => ⟨S2048x8192, .f32⟩
  | 70 => ⟨S2048x8192, .f32⟩
  | 71 => ⟨S_, .f32⟩
  | 72 => ⟨S2048x8192, .f32⟩
  | 73 => ⟨S2048x8192, .f32⟩
  | 74 => ⟨S2048x8192, .f32⟩
  | 75 => ⟨S_, .f32⟩
  | 76 => ⟨S2048x8192, .f32⟩
  | 77 => ⟨S2048x8192, .f32⟩
  | 78 => ⟨S_, .f32⟩
  | 79 => ⟨S2048x8192, .f32⟩
  | 80 => ⟨S_, .f32⟩
  | 81 => ⟨S2048x8192, .f32⟩
  | 82 => ⟨S8192x1, .f32⟩
  | 83 => ⟨S8192, .f32⟩
  | 84 => ⟨S1x8192, .f32⟩
  | 85 => ⟨S2048x8192, .f32⟩
  | 86 => ⟨S2048x8192, .f32⟩
  | 87 => ⟨S2048x8192, .f32⟩
  | 88 => ⟨S8192x1, .f32⟩
  | 89 => ⟨S8192, .f32⟩
  | 90 => ⟨S1x8192, .f32⟩
  | 91 => ⟨S2048x8192, .f32⟩
  | 92 => ⟨S2048x8192, .f32⟩
  | 93 => ⟨S2048x8192, .f32⟩
  | 94 => ⟨S8192x1, .f32⟩
  | 95 => ⟨S8192, .f32⟩
  | 96 => ⟨S1x8192, .f32⟩
  | 97 => ⟨S2048x8192, .f32⟩
  | 98 => ⟨S2048x8192, .f32⟩
  | 99 => ⟨S2048x8192, .f32⟩
  | 100 => ⟨S8192x1, .f32⟩
  | 101 => ⟨S8192, .f32⟩
  | 102 => ⟨S1x8192, .f32⟩
  | 103 => ⟨S2048x8192, .f32⟩
  | 104 => ⟨S2048x8192, .f32⟩
  | 105 => ⟨S2048x8192, .f32⟩
  | 106 => ⟨S8192x1, .f32⟩
  | 107 => ⟨S8192, .f32⟩
  | 108 => ⟨S1x8192, .f32⟩
  | 109 => ⟨S2048x8192, .f32⟩
  | 110 => ⟨S2048x8192, .f32⟩
  | 111 => ⟨S2048x8192, .f32⟩
  | 112 => ⟨S8192x1, .f32⟩
  | 113 => ⟨S8192, .f32⟩
  | 114 => ⟨S1x8192, .f32⟩
  | 115 => ⟨S2048x8192, .f32⟩
  | 116 => ⟨S2048x8192, .f32⟩
  | 117 => ⟨S2048x8192, .f32⟩
  | 118 => ⟨S8192x1, .f32⟩
  | 119 => ⟨S8192, .f32⟩
  | 120 => ⟨S1x8192, .f32⟩
  | 121 => ⟨S2048x8192, .f32⟩
  | 122 => ⟨S2048x8192, .f32⟩
  | 123 => ⟨S2048x8192, .f32⟩
  | 124 => ⟨S8192x1, .f32⟩
  | 125 => ⟨S8192, .f32⟩
  | 126 => ⟨S1x8192, .f32⟩
  | 127 => ⟨S2048x8192, .f32⟩
  | _ => ⟨S2048x8192, .f32⟩

abbrev hbmTy0_1 (i : Nat) : BufTy := match i % 128 with
  | 0 => ⟨S2048x8192, .f32⟩
  | 1 => ⟨S2048x8192, .f32⟩
  | 2 => ⟨S8192x1, .f32⟩
  | 3 => ⟨S8192, .f32⟩
  | 4 => ⟨S1x8192, .f32⟩
  | 5 => ⟨S2048x8192, .f32⟩
  | 6 => ⟨S2048x8192, .f32⟩
  | 7 => ⟨S2048x8192, .f32⟩
  | 8 => ⟨S8192x1, .f32⟩
  | 9 => ⟨S8192, .f32⟩
  | 10 => ⟨S1x8192, .f32⟩
  | 11 => ⟨S2048x8192, .f32⟩
  | 12 => ⟨S2048x8192, .f32⟩
  | 13 => ⟨S2048x8192, .f32⟩
  | 14 => ⟨S8192x1, .f32⟩
  | 15 => ⟨S8192, .f32⟩
  | 16 => ⟨S1x8192, .f32⟩
  | 17 => ⟨S2048x8192, .f32⟩
  | 18 => ⟨S2048x8192, .f32⟩
  | 19 => ⟨S2048x8192, .f32⟩
  | 20 => ⟨S8192x1, .f32⟩
  | 21 => ⟨S8192, .f32⟩
  | 22 => ⟨S1x8192, .f32⟩
  | 23 => ⟨S2048x8192, .f32⟩
  | 24 => ⟨S2048x8192, .f32⟩
  | 25 => ⟨S2048x8192, .f32⟩
  | 26 => ⟨S8192x1, .f32⟩
  | 27 => ⟨S8192, .f32⟩
  | 28 => ⟨S1x8192, .f32⟩
  | 29 => ⟨S2048x8192, .f32⟩
  | 30 => ⟨S2048x8192, .f32⟩
  | 31 => ⟨S2048x8192, .f32⟩
  | 32 => ⟨S8192x1, .f32⟩
  | 33 => ⟨S8192, .f32⟩
  | 34 => ⟨S1x8192, .f32⟩
  | 35 => ⟨S2048x8192, .f32⟩
  | 36 => ⟨S2048x8192, .f32⟩
  | 37 => ⟨S2048x8192, .f32⟩
  | 38 => ⟨S8192x1, .f32⟩
  | 39 => ⟨S8192, .f32⟩
  | 40 => ⟨S1x8192, .f32⟩
  | 41 => ⟨S2048x8192, .f32⟩
  | 42 => ⟨S2048x8192, .f32⟩
  | 43 => ⟨S2048x8192, .f32⟩
  | 44 => ⟨S8192x1, .f32⟩
  | 45 => ⟨S8192, .f32⟩
  | 46 => ⟨S1x8192, .f32⟩
  | 47 => ⟨S2048x8192, .f32⟩
  | 48 => ⟨S2048x8192, .f32⟩
  | 49 => ⟨S2048x8192, .f32⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x16_S8192_d1 : S8192x16.ReducesTo [1] S8192
  h_S_ : 0 < S_.numel
  bcast_S8192x1_S8192x16_0_1 : S8192x1.BroadcastsInDim S8192x16 (![0, 1] : Fin 2 → Fin S8192x16.rank)
  bcast_S_S2048x8192 : S_.BroadcastsInDim S2048x8192 (![] : Fin 0 → Fin S2048x8192.rank)
  slices_S8192x16_S8192x1_0_0 : S8192x16.Slices ![0, 0] S8192x1
  shapeCasts_S8192x1_S8192 : S8192x1.ShapeCasts S8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S8192x16_S8192x1_0_1 : S8192x16.Slices ![0, 1] S8192x1
  slices_S8192x16_S8192x1_0_2 : S8192x16.Slices ![0, 2] S8192x1
  slices_S8192x16_S8192x1_0_3 : S8192x16.Slices ![0, 3] S8192x1
  slices_S8192x16_S8192x1_0_4 : S8192x16.Slices ![0, 4] S8192x1
  slices_S8192x16_S8192x1_0_5 : S8192x16.Slices ![0, 5] S8192x1
  slices_S8192x16_S8192x1_0_6 : S8192x16.Slices ![0, 6] S8192x1
  slices_S8192x16_S8192x1_0_7 : S8192x16.Slices ![0, 7] S8192x1
  slices_S8192x16_S8192x1_0_8 : S8192x16.Slices ![0, 8] S8192x1
  slices_S8192x16_S8192x1_0_9 : S8192x16.Slices ![0, 9] S8192x1
  slices_S8192x16_S8192x1_0_10 : S8192x16.Slices ![0, 10] S8192x1
  slices_S8192x16_S8192x1_0_11 : S8192x16.Slices ![0, 11] S8192x1
  slices_S8192x16_S8192x1_0_12 : S8192x16.Slices ![0, 12] S8192x1
  slices_S8192x16_S8192x1_0_13 : S8192x16.Slices ![0, 13] S8192x1
  slices_S8192x16_S8192x1_0_14 : S8192x16.Slices ![0, 14] S8192x1
  slices_S8192x16_S8192x1_0_15 : S8192x16.Slices ![0, 15] S8192x1
  gather_S2048x8192_S8192x1_S2048x8192_0_1_n_n_1_1_20481_wf : GatherDims.WF S2048x8192 S8192x1 S2048x8192 [0] [1] [] [1] [] 1 ![2048, 1]

variable [Facts₀]

def gather_S2048x8192_S8192x1_S2048x8192_0_1_n_n_1_1_20481 : GatherDims S2048x8192 S8192x1 S2048x8192 where
  offsetDims := [0]
  collapsedSliceDims := [1]
  operandBatchingDims := []
  startIndicesBatchingDims := []
  startIndexMap := [1]
  indexVectorDim := 1
  sliceSizes := ![2048, 1]
  wf := gather_S2048x8192_S8192x1_S2048x8192_0_1_n_n_1_1_20481_wf

class Facts : Prop extends Facts₀ where

variable [Facts]
-- ==== Proof.KernelCombine.lean ====
/-
  The kernel's result array as one function of the three arrays the region finds.
  The region combines, for output neuron j and batch row r, the two gathered inputs a = A (j, r), b = B (j, r)
  with the neuron's four coefficients c = Co (j, .):  c0 * a + c1 * b + c2 * (a * b) + c3, and writes it at (r, j):
  each grid point (g0, g1) reads the 1024 x 512 blocks (g0, g1) of A and B and the 1024 x 4 block (g0, 0) of Co
  and writes the transposed 512 x 1024 block (g1, g0) of the result. The 32 output blocks tile the result.
-/
import proofs.«429455_j82042465289181_2_alg».proof.Proof.Gen.KernelIdeal.Value
import Idealize.ShloMosaic.Lib.ValueIdx
import Idealize.ShloMosaic.Lib.Pipeline.Value

noncomputable section

namespace Cert.KernelIdeal.Combine

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem off_zero : (![0, 0] : Fin 2 → Nat) = fun _ => 0 := funext fun a => by fin_cases a <;> rfl

/-- The affine-bilinear combination at batch row r and output neuron j. -/
abbrev combine (A B : S8192x2048.Idx → Elt F .f32) (Co : S8192x4.Idx → Elt F .f32) (r : Fin 2048) (j : Fin 8192) : Elt F .f32 :=
  FloatOps.addf (FloatOps.addf (FloatOps.addf (FloatOps.mulf (Co (ix2 j (0 : Fin 4))) (A (ix2 j r))) (FloatOps.mulf (Co (ix2 j (1 : Fin 4))) (B (ix2 j r))))
    (FloatOps.mulf (Co (ix2 j (2 : Fin 4))) (FloatOps.mulf (A (ix2 j r)) (B (ix2 j r))))) (Co (ix2 j (3 : Fin 4)))

/-- The whole result array. -/
abbrev result (A B : S8192x2048.Idx → Elt F .f32) (Co : S8192x4.Idx → Elt F .f32) : S2048x8192.Idx → Elt F .f32 :=
  fun i => combine A B Co (i 0) (i 1)

/-- The printed index maps over the 32 grid points: the two gathered inputs and the coefficients move with the
    output block, rows and columns swapped; the output's block indices fill 4 x 8. -/
theorem index_facts : ∀ t : Fin cfg0.N, win0_0.index t (0 : Fin 2) = win0_3.index t (1 : Fin 2)
    ∧ win0_0.index t (1 : Fin 2) = win0_3.index t (0 : Fin 2)
    ∧ win0_1.index t (0 : Fin 2) = win0_3.index t (1 : Fin 2)
    ∧ win0_1.index t (1 : Fin 2) = win0_3.index t (0 : Fin 2)
    ∧ win0_2.index t (0 : Fin 2) = win0_3.index t (1 : Fin 2)
    ∧ win0_2.index t (1 : Fin 2) = 0
    ∧ win0_3.index t (0 : Fin 2) ≤ 3 ∧ win0_3.index t (1 : Fin 2) ≤ 7 :=
  (by decide +kernel : ∀ t : Fin grid0.N, _)

/-- Every one of the 4 x 8 output blocks is some grid point's. -/
theorem index_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-- The block a point leaves is the combination, whenever each of its reads lands on the matching entry of
    the three arrays. -/
theorem block_eq (P0 : Vec F S1024x4 .f32) (P1 P2 : Vec F S1024x512 .f32) (A B : S8192x2048.Idx → Elt F .f32)
    (Co : S8192x4.Idx → Elt F .f32) (y : S512x1024.Idx) (i : S2048x8192.Idx)
    (h0 : P0 (ix3_0 y) = Co (ix2 (i 1) (0 : Fin 4))) (h2 : P0 (ix3_2 y) = Co (ix2 (i 1) (1 : Fin 4)))
    (h4 : P0 (ix3_4 y) = Co (ix2 (i 1) (2 : Fin 4))) (h7 : P0 (ix3_7 y) = Co (ix2 (i 1) (3 : Fin 4)))
    (h1 : P1 (ix3_1 y) = A (ix2 (i 1) (i 0))) (h3 : P2 (ix3_3 y) = B (ix2 (i 1) (i 0))) :
    E3 P0 P1 P2 y = result A B Co i := by
  show FloatOps.addf (FloatOps.addf (FloatOps.addf (FloatOps.mulf (P0 (ix3_0 y)) (P1 (ix3_1 y))) (FloatOps.mulf (P0 (ix3_2 y)) (P2 (ix3_3 y))))
      (FloatOps.mulf (P0 (ix3_4 y)) (FloatOps.mulf (P1 (ix3_1 y)) (P2 (ix3_3 y))))) (P0 (ix3_7 y))
    = FloatOps.addf (FloatOps.addf (FloatOps.addf (FloatOps.mulf (Co (ix2 (i 1) (0 : Fin 4))) (A (ix2 (i 1) (i 0)))) (FloatOps.mulf (Co (ix2 (i 1) (1 : Fin 4))) (B (ix2 (i 1) (i 0)))))
      (FloatOps.mulf (Co (ix2 (i 1) (2 : Fin 4))) (FloatOps.mulf (A (ix2 (i 1) (i 0))) (B (ix2 (i 1) (i 0)))))) (Co (ix2 (i 1) (3 : Fin 4)))
  rw [h0, h2, h4, h7, h1, h3]

/-- For ANY three arrays: the combination of a point's three input blocks is the point's block of the arrays'
    combination (the input blocks sit at the output block's position, rows and columns swapped). -/
theorem blocks_combine (A B : S8192x2048.Idx → Elt F .f32) (Co : S8192x4.Idx → Elt F .f32) (t : Fin cfg0.N) (y : S512x1024.Idx) :
    E3 (((cfg0.win 2).blk t).view.read (Elt F) Co) (((cfg0.win 0).blk t).view.read (Elt F) A) (((cfg0.win 1).blk t).view.read (Elt F) B) y = result A B Co (((cfg0.win 3).blk t).view.emb (y)) := by
  obtain ⟨e0, e1, e2, e3, e4, e5, e6, e7⟩ := index_facts t
  have hy0 : (y 0).val < 512 := (y 0).isLt
  have hy1 : (y 1).val < 1024 := (y 1).isLt
  have hc0 : (((cfg0.win 2).blk t).view.emb (ix3_0 y)) = ix2 ((((cfg0.win 3).blk t).view.emb (y)) 1) (0 : Fin 4) := by
    funext a; apply Fin.ext
    match a with
    | ⟨0, _⟩ => show win0_2.index t (0 : Fin 2) * 1024 + 1 * (y 1).val = win0_3.index t (1 : Fin 2) * 1024 + 1 * (y 1).val; omega
    | ⟨1, _⟩ => show win0_2.index t (1 : Fin 2) * 4 + 1 * 0 = 0; omega
  have hc1 : (((cfg0.win 2).blk t).view.emb (ix3_2 y)) = ix2 ((((cfg0.win 3).blk t).view.emb (y)) 1) (1 : Fin 4) := by
    funext a; apply Fin.ext
    match a with
    | ⟨0, _⟩ => show win0_2.index t (0 : Fin 2) * 1024 + 1 * (y 1).val = win0_3.index t (1 : Fin 2) * 1024 + 1 * (y 1).val; omega
    | ⟨1, _⟩ => show win0_2.index t (1 : Fin 2) * 4 + 1 * 1 = 1; omega
  have hc2 : (((cfg0.win 2).blk t).view.emb (ix3_4 y)) = ix2 ((((cfg0.win 3).blk t).view.emb (y)) 1) (2 : Fin 4) := by
    funext a; apply Fin.ext
    match a with
    | ⟨0, _⟩ => show win0_2.index t (0 : Fin 2) * 1024 + 1 * (y 1).val = win0_3.index t (1 : Fin 2) * 1024 + 1 * (y 1).val; omega
    | ⟨1, _⟩ => show win0_2.index t (1 : Fin 2) * 4 + 1 * 2 = 2; omega
  have hc3 : (((cfg0.win 2).blk t).view.emb (ix3_7 y)) = ix2 ((((cfg0.win 3).blk t).view.emb (y)) 1) (3 : Fin 4) := by
    funext a; apply Fin.ext
    match a with
    | ⟨0, _⟩ => show win0_2.index t (0 : Fin 2) * 1024 + 1 * (y 1).val = win0_3.index t (1 : Fin 2) * 1024 + 1 * (y 1).val; omega
    | ⟨1, _⟩ => show win0_2.index t (1 : Fin 2) * 4 + 1 * 3 = 3; omega
  have ha1 : (((cfg0.win 0).blk t).view.emb (ix3_1 y)) = ix2 ((((cfg0.win 3).blk t).view.emb (y)) 1) ((((cfg0.win 3).blk t).view.emb (y)) 0) := by
    funext a; apply Fin.ext
    match a with
    | ⟨0, _⟩ => show win0_0.index t (0 : Fin 2) * 1024 + 1 * (y 1).val = win0_3.index t (1 : Fin 2) * 1024 + 1 * (y 1).val; omega
    | ⟨1, _⟩ => show win0_0.index t (1 : Fin 2) * 512 + 1 * (y 0).val = win0_3.index t (0 : Fin 2) * 512 + 1 * (y 0).val; omega
  have hb3 : (((cfg0.win 1).blk t).view.emb (ix3_3 y)) = ix2 ((((cfg0.win 3).blk t).view.emb (y)) 1) ((((cfg0.win 3).blk t).view.emb (y)) 0) := by
    funext a; apply Fin.ext
    match a with
    | ⟨0, _⟩ => show win0_1.index t (0 : Fin 2) * 1024 + 1 * (y 1).val = win0_3.index t (1 : Fin 2) * 1024 + 1 * (y 1).val; omega
    | ⟨1, _⟩ => show win0_1.index t (1 : Fin 2) * 512 + 1 * (y 0).val = win0_3.index t (0 : Fin 2) * 512 + 1 * (y 0).val; omega
  exact block_eq _ _ _ A B Co y (((cfg0.win 3).blk t).view.emb (y))
    (congrArg Co hc0) (congrArg Co hc1) (congrArg Co hc2) (congrArg Co hc3) (congrArg A ha1) (congrArg B hb3)

/-- What a grid point writes back is its block of the result array. -/
theorem flushed_eq (c : Dev nD) (t : Fin cfg0.N) :
    (dats m 0 c).flushed 3 t = ((cfg0.win 3).blk t).view.read (Elt F) (result (V m c main_v1) (V m c main_v2) (V m c main_v14)) := by
  rw [Value.flushed3]
  unfold out0_3
  simp only [View.ld_unit_zero (S := S1024x512) off_zero, View.ld_unit_zero (S := S1024x4) off_zero]
  funext y
  have key := Value.canon3_eq (F := F) (iblk m c 2 t) (iblk m c 0 t) (iblk m c 1 t) y
  show View.canon [⟨r0_2, k0_pay1 (iblk m c 0 t) (iblk m c 1 t) (iblk m c 2 t)⟩] y
    = result (V m c main_v1) (V m c main_v2) (V m c main_v14) (((cfg0.win 3).blk t).view.emb (y))
  refine key.trans ?_
  exact blocks_combine (V m c main_v1) (V m c main_v2) (V m c main_v14) t y

/-- An index of the result is in a point's block iff each coordinate is in the block's range. -/
theorem mem_block (t : Fin cfg0.N) (i : S2048x8192.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v15).slice (win0_3.rect t)).set ↔ _
  rw [View.set_slice_whole, Rect.mem_set_unit]
  exact Iff.rfl

/-- The output blocks tile the result: row r lies in block row r / 512, column j in block column j / 1024. -/
theorem cover (i : S2048x8192.Idx) : ∃ t : Fin cfg0.N, (cfg0.win 3).flush t = true ∧ i ∈ ((cfg0.win 3).blk t).view.set := by
  have hi0 : (i 0).val < 2048 := (i 0).isLt
  have hi1 : (i 1).val < 8192 := (i 1).isLt
  obtain ⟨t, ht⟩ := index_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the run the result array is the combination of the arrays the region found. -/
theorem final (c : Dev nD) : (dats m 0 c).arrAt 3 cfg0.N = result (V m c main_v1) (V m c main_v2) (V m c main_v14) :=
  (dats m 0 c).arrAt_eq_of_cover 3 (result (V m c main_v1) (V m c main_v2) (V m c main_v14)) (fun t _ => flushed_eq m c t) cover

/-- The run, with the result array named. -/
theorem run : θ_run defs (onTc (τ := τ) (main (F := F))) ⟨m, fun _ => 0, ρ⟩ fun r => ∀ c : Dev nD,
      r.2.mem ((c : Thread nD τ).loc main_v15) = result (V m c main_v1) (V m c main_v2) (V m c main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Combine

end
-- ==== Proof.Shared.lean ====
/-
  The two host-side ingredients both programs share, as standalone terms over literal shapes.
  Index normalisation: a signed index v addresses column v when v >= 0 and column v + 8192 when v < 0.
  Softmax over the 16 gate logits of a row: exp (w - max_k w) divided by the row sum of those exponentials.
-/
import Idealize.ShloMosaic.PureOps
import Idealize.ShloMosaic.Lib.ValueIdx

noncomputable section

namespace Cert.Logic

open Idealize.ShloMosaic

abbrev R16 : Shape := ⟨2, ![8192, 16]⟩
abbrev R1 : Shape := ⟨2, ![8192, 1]⟩
abbrev Rv : Shape := ⟨1, ![8192]⟩
abbrev Sc : Shape := ⟨0, ![]⟩

/-- The shape relations the two terms cite, gathered so that a caller supplies them once. -/
structure ShapeFacts : Prop where
  bS : Sc.BroadcastsInDim Rv (![] : Fin 0 → Fin Rv.rank)
  bV : Rv.BroadcastsInDim R1 (![0] : Fin 1 → Fin R1.rank)
  bC : R1.BroadcastsInDim R16 (![0, 1] : Fin 2 → Fin R16.rank)
  red : R16.ReducesTo [1] Rv
  hS : 0 < Sc.numel

/-- A negative index counts from the end of an axis of extent 8192. -/
def norm (hf : ShapeFacts) (v : IVec Rv 32) : IVec Rv 32 :=
  select (cmpi .slt v (broadcastInDim Rv ![] hf.bS (constantI Sc 32 0#32)))
    (addi v (broadcastInDim Rv ![] hf.bS (constantI Sc 32 8192#32))) v

variable {F : FTy → Type} [FloatOps F]

/-- The row maximum (started from -inf), broadcast back over the row. -/
def rowMax (hf : ShapeFacts) (W : FVec F R16 .f32) : FVec F R16 .f32 :=
  broadcastInDim R16 ![0, 1] hf.bC (broadcastInDim R1 ![0] hf.bV
    (maximumf (broadcastInDim Rv ![] hf.bS (constant Sc .f32 0xFF800000#32))
      (Host.reduce FloatOps.maximumf W (constant Sc .f32 0xFF800000#32) hf.red hf.hS)))

/-- The shifted exponentials exp (w - max). -/
def expShift (hf : ShapeFacts) (W : FVec F R16 .f32) : FVec F R16 .f32 :=
  Host.exp (subf W (rowMax hf W))

/-- softmax over the last axis: the shifted exponentials over their row sum. -/
def softmax (hf : ShapeFacts) (W : FVec F R16 .f32) : FVec F R16 .f32 :=
  Host.divf (expShift hf W) (broadcastInDim R16 ![0, 1] hf.bC (broadcastInDim R1 ![0] hf.bV
    (Host.reduceAdd (expShift hf W) (constant Sc .f32 0x00000000#32) hf.red hf.hS)))

end Cert.Logic

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.GatherCols.lean ====
/-
  The column gather of a matrix and the transpose of a matrix, read at an index.
  Columns of an array: x[:, idx] of an R x N array at a column of C start indices is, at (r, j), the array's
  entry (r, idx j), the start index read signed and clamped into the array's columns.
  A matrix transposed reads, at (j, b), the operand at (b, j).
-/
import Idealize.ShloMosaic.PureOps
import Idealize.ShloMosaic.Lib.ValueIdx
import Idealize.ShloMosaic.Lib.ValueLayout

noncomputable section

namespace Cert.Logic

open Idealize.ShloMosaic Idealize.ShloMosaic.ValueIdx

variable {α : Type}

/-- Axis 0 of a rank-2 operand is not among the axes [1]. -/
private theorem zero_notMem_one : (0 : Fin 2) ∉ ([1] : List (Fin 2)) := by decide

/-- The dimension numbers of x[:, idx]: operand R x N, start indices C x 1, result R x C; the row axis is the
    offset axis, sliced whole, and the column axis is collapsed and indexed. -/
abbrev colTakeDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- The gathered columns read at (r, j): row r of the array at the clamped start index of column j. -/
theorem gather_cols_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (j : Fin C) :
    Host.gather (colTakeDims R N C wf) x idx (ix2 r j)
      = x (ix2 r (⟨min (idx (ix2 j (0 : Fin 1))).toInt.toNat (N - 1), by omega⟩ : Fin N)) := by
  -- the gather reads the array at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the array's rows: the offset axis. It is not in the start index map, so the start is 0; no batching
    -- axes; it is the only kept operand axis, paired with the result's offset axis 0, whose coordinate is r
    show (colTakeDims R N C wf).start (ix2 r j) idx 0 + (colTakeDims R N C wf).batchCoord (ix2 r j) 0
      + (colTakeDims R N C wf).offCoord (ix2 r j) 0 = r.val
    rw [GatherDims.batchCoord_eq_zero _ _ _ List.not_mem_nil]
    unfold GatherDims.start
    rw [dif_neg (show (0 : Fin 2) ∉ (colTakeDims R N C wf).startIndexMap from zero_notMem_one)]
    unfold GatherDims.offCoord
    rw [dif_pos (show (0 : Fin 2) ∈ (colTakeDims R N C wf).sKept from
      (GatherDims.mem_sKept _ _).mpr ⟨zero_notMem_one, List.not_mem_nil⟩)]
    simp only [Nat.zero_add]
    rfl
  | ⟨1, _⟩ =>
    -- axis 1, the array's columns: collapsed and indexed. No batching axes, and a collapsed axis carries no offset,
    -- so only the start is left: the start index of result column j, clamped to N - 1 (columns minus the slice size 1)
    show (colTakeDims R N C wf).start (ix2 r j) idx 1 + (colTakeDims R N C wf).batchCoord (ix2 r j) 1
      + (colTakeDims R N C wf).offCoord (ix2 r j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colTakeDims R N C wf).startIndexMap from List.mem_singleton.mpr rfl)]
    -- the start index is read at (j, 0): j from the result's batch axis 1, and component 0 on the index vector's axis 1
    have hsi : (colTakeDims R N C wf).siIdx (ix2 r j) ⟨List.idxOf (1 : Fin 2) (colTakeDims R N C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- The 2048 x 8192 matrix transposed reads, at (j, b), the operand at (b, j). -/
theorem transpose_2048_8192_apply
    (h : (⟨2, ![2048, 8192]⟩ : Shape).Transposes [1, 0] ⟨2, ![8192, 2048]⟩)
    (x : (⟨2, ![2048, 8192]⟩ : Shape).Idx → α) (j : Fin 8192) (b : Fin 2048) :
    transpose (⟨2, ![8192, 2048]⟩ : Shape) [1, 0] x h (ix2 j b) = x (ix2 b j) :=
  transpose_ix2_apply x h j b

end Cert.Logic

end
-- ==== Proof.Take.lean ====
/-
  The take of rows of a matrix in fill mode, as one term, read at an index.
  jnp.take(xT, idx, axis=0) normalises each index (a negative one counts from the end), gathers the rows at the
  normalised indices clamped into the matrix, and keeps a gathered row only where its normalised index lies in
  [0, 8191], writing the quiet NaN elsewhere. When every normalised index is in range the result at (j, r) is the
  matrix's entry (idx j, r); over a transposed matrix that is the original's entry (r, idx j), which is also what
  the gather of columns at the same start indices reads.
-/
import Idealize.ShloMosaic.PureOps
import Idealize.ShloMosaic.PureOps.Reduce
import Idealize.ShloMosaic.Lib.ValueIdx
import Idealize.ShloMosaic.Lib.Pipeline.Value
import proofs.«429455_j82042465289181_2_alg».proof.Proof.Shared
import proofs.«429455_j82042465289181_2_alg».proof.Proof.LibGatherRows
import proofs.«429455_j82042465289181_2_alg».proof.Proof.GatherCols

noncomputable section

namespace Cert.Logic

open Idealize.ShloMosaic

variable {F : FTy → Type} [FloatOps F]

abbrev XT : Shape := ⟨2, ![8192, 2048]⟩
abbrev X : Shape := ⟨2, ![2048, 8192]⟩
abbrev S1 : Shape := ⟨1, ![1]⟩
abbrev S11 : Shape := ⟨2, ![1, 1]⟩

/-- The shape relations the fill-mode take cites, gathered so that a caller supplies them once. -/
structure TakeFacts : Prop where
  bS1 : Sc.BroadcastsInDim R1 (![] : Fin 0 → Fin R1.rank)
  b11 : S1.BroadcastsInDim S11 (![1] : Fin 1 → Fin S11.rank)
  b1R : S11.BroadcastsInDim R1 (![0, 1] : Fin 2 → Fin R1.rank)
  red1 : R1.ReducesTo [1] Rv
  bVX : Rv.BroadcastsInDim XT (![0] : Fin 1 → Fin XT.rank)
  bSX : Sc.BroadcastsInDim XT (![] : Fin 0 → Fin XT.rank)
  gwf : GatherDims.WF XT R1 XT [1] [0] [] [0] [] 1 ![1, 2048]

/-- The start indices of the take: the normalised indices as a column. -/
def startIdx (hf : ShapeFacts) (v : IVec Rv 32) : IVec R1 32 := broadcastInDim R1 ![0] hf.bV (norm hf v)

/-- Per index, whether its start index lies in [0, 8191]: the two compares, and-reduced over the size-1 axis. -/
def inRange (hf : ShapeFacts) (tf : TakeFacts) (v : IVec Rv 32) : IVec Rv 1 :=
  Host.reduce IntOp.andi
    (andi (cmpi .sge (startIdx hf v) (broadcastInDim R1 ![] tf.bS1 (constantI Sc 32 0#32)))
      (cmpi .sle (startIdx hf v) (broadcastInDim R1 ![0, 1] tf.b1R (broadcastInDim S11 ![1] tf.b11
        (constantI S1 32 8191#32)))))
    (constantI Sc 1 1#1) tf.red1 hf.hS

/-- The take of rows in fill mode: the gathered row where the index is in range, the quiet NaN elsewhere. -/
def takeRows (hf : ShapeFacts) (tf : TakeFacts) (xT : FVec F XT .f32) (v : IVec Rv 32) : FVec F XT .f32 :=
  select (broadcastInDim XT ![0] tf.bVX (inRange hf tf v))
    (Host.gather (Cert.LibGatherRows.rowTakeDims 8192 2048 8192 tf.gwf) xT (startIdx hf v))
    (broadcastInDim XT ![] tf.bSX (constant Sc .f32 0x7FC00000#32))

/-- The row (or column) the j-th index addresses: its normalised value read signed and clamped to 8191. -/
def col (hf : ShapeFacts) (v : IVec Rv 32) (j : Fin 8192) : Fin 8192 :=
  ⟨min (norm hf v (ValueIdx.ix1 j)).toInt.toNat (8192 - 1), by omega⟩

/-- A left fold by and over one-bit words that starts at 1 and meets only 1s comes out 1. -/
theorem foldl_andi_of_all_one {ι : Type} (f : ι → BitVec 1) (hall : ∀ n, f n = 1#1) :
    ∀ (l : List ι) (init : BitVec 1), init = 1#1 → l.foldl (fun r n => IntOp.andi r (f n)) init = 1#1
  | [], _, h => h
  | a :: l, init, h => by
    rw [List.foldl_cons]
    refine foldl_andi_of_all_one f hall l _ ?_
    rw [h, hall a]
    decide

/-- The start index at any (j, c) is the j-th normalised index. -/
theorem startIdx_eq (hf : ShapeFacts) (v : IVec Rv 32) (i : R1.Idx) :
    startIdx hf v i = norm hf v (ValueIdx.ix1 (i 0)) := by
  unfold startIdx
  exact broadcastInDim_apply _ _ _ _ _ (fun a => match a with | ⟨0, _⟩ => rfl)

/-- The start index at (j, 0) is the j-th normalised index. -/
theorem startIdx_apply (hf : ShapeFacts) (v : IVec Rv 32) (j : Fin 8192) :
    startIdx hf v (ValueIdx.ix2 j (0 : Fin 1)) = norm hf v (ValueIdx.ix1 j) :=
  startIdx_eq hf v _

/-- With every normalised index in [0, 8191] the range test is 1 at every index: both compares are 1 at every
    entry of the column, so their and-reduction, started at 1, is 1. -/
theorem inRange_eq_one (hf : ShapeFacts) (tf : TakeFacts) (v : IVec Rv 32)
    (hin : ∀ j : Rv.Idx, IntOp.cmpi .sge (norm hf v j) 0#32 = 1#1 ∧ IntOp.cmpi .sle (norm hf v j) 8191#32 = 1#1)
    (k : Rv.Idx) : inRange hf tf v k = 1#1 := by
  unfold inRange
  rw [Host.reduce_eq_foldl]
  refine foldl_andi_of_all_one _ (fun i => ?_) _ _ rfl
  -- the entry at i: the two compares of the start index at i against the splats 0 and 8191
  show IntOp.andi (IntOp.cmpi .sge (startIdx hf v i) 0#32) (IntOp.cmpi .sle (startIdx hf v i) 8191#32) = 1#1
  obtain ⟨h1, h2⟩ := hin (ValueIdx.ix1 (i 0))
  rw [startIdx_eq, h1, h2]
  decide

/-- THE TAKE OF ROWS READ AT (j, r), every normalised index in range: the operand's row col j, at r. -/
theorem takeRows_apply (hf : ShapeFacts) (tf : TakeFacts) (xT : FVec F XT .f32) (v : IVec Rv 32)
    (hin : ∀ j : Rv.Idx, IntOp.cmpi .sge (norm hf v j) 0#32 = 1#1 ∧ IntOp.cmpi .sle (norm hf v j) 8191#32 = 1#1)
    (j : Fin 8192) (r : Fin 2048) :
    takeRows hf tf xT v (ValueIdx.ix2 j r) = xT (ValueIdx.ix2 (col hf v j) r) := by
  -- the mask at (j, r) is the range test at j, which is 1
  have hb : broadcastInDim XT ![0] tf.bVX (inRange hf tf v) (ValueIdx.ix2 j r) = 1#1 := by
    rw [broadcastInDim_apply _ _ _ _ (ValueIdx.ix1 j) (fun a => match a with | ⟨0, _⟩ => rfl)]
    exact inRange_eq_one hf tf v hin _
  -- so the select takes the gathered row, read at its clamped start index
  show Scalar.select (broadcastInDim XT ![0] tf.bVX (inRange hf tf v) (ValueIdx.ix2 j r))
    (Host.gather (Cert.LibGatherRows.rowTakeDims 8192 2048 8192 tf.gwf) xT (startIdx hf v) (ValueIdx.ix2 j r)) _ = _
  rw [hb]
  show (if (1#1 : BitVec 1) = 1 then _ else _) = _
  rw [if_pos (show (1#1 : BitVec 1) = 1 from rfl), Cert.LibGatherRows.gather_rows_apply (by omega)]
  simp only [startIdx_apply]
  rfl

/-- The gather of columns at the same start indices read at (r, j): the operand's column col j, at r. -/
theorem takeCols_apply (hf : ShapeFacts) (wf : GatherDims.WF X R1 X [0] [1] [] [1] [] 1 ![2048, 1])
    (x : FVec F X .f32) (v : IVec Rv 32) (r : Fin 2048) (j : Fin 8192) :
    Host.gather (colTakeDims 2048 8192 8192 wf) x (startIdx hf v) (ValueIdx.ix2 r j)
      = x (ValueIdx.ix2 r (col hf v j)) := by
  rw [gather_cols_apply (by omega)]
  simp only [startIdx_apply]
  rfl

/-- The take of rows of the transposed matrix read at (j, r): the matrix's column col j, at r. -/
theorem take_transpose_apply (hf : ShapeFacts) (tf : TakeFacts) (htr : X.Transposes [1, 0] XT)
    (x : FVec F X .f32) (v : IVec Rv 32)
    (hin : ∀ j : Rv.Idx, IntOp.cmpi .sge (norm hf v j) 0#32 = 1#1 ∧ IntOp.cmpi .sle (norm hf v j) 8191#32 = 1#1)
    (j : Fin 8192) (r : Fin 2048) :
    takeRows hf tf (transpose XT [1, 0] x htr) v (ValueIdx.ix2 j r) = x (ValueIdx.ix2 r (col hf v j)) := by
  rw [takeRows_apply hf tf _ v hin j r, transpose_2048_8192_apply]

end Cert.Logic

end
-- ==== Proof.KernelHost.lean ====
/-
  What the region finds in its three input arrays, as terms of the program's arguments.
  The two gathered inputs are jnp.take in fill mode of the transposed x at the (normalised) indices idx_a, idx_b;
  the coefficients are the softmax of the weights contracted with the fixed 16 x 4 gate table.
-/
import proofs.«429455_j82042465289181_2_alg».proof.Proof.Gen.KernelIdeal.Frame
import proofs.«429455_j82042465289181_2_alg».proof.Proof.Shared
import proofs.«429455_j82042465289181_2_alg».proof.Proof.Take
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.Tactic Cert.Logic

variable {F : FTy → Type} [FloatOps F]
variable (m : (ℓ : Loc nD τ sig) → Buf (Elt F) ℓ)

/-- The shape relations of the shared terms, from the program's own. -/
theorem sf : ShapeFacts :=
  ⟨Facts₀.bcast_S_S8192, Facts₀.bcast_S8192_S8192x1_0, Facts₀.bcast_S8192x1_S8192x16_0_1, Facts₀.reducesTo_S8192x16_S8192_d1, Facts₀.h_S_⟩

theorem tk : TakeFacts :=
  ⟨Facts₀.bcast_S_S8192x1, Facts₀.bcast_S1_S1x1_1, Facts₀.bcast_S1x1_S8192x1_0_1, Facts₀.reducesTo_S8192x1_S8192_d1, Facts₀.bcast_S8192_S8192x2048_0,
    Facts₀.bcast_S_S8192x2048, Facts₀.gather_S8192x2048_S8192x1_S8192x2048_1_0_n_n_0_1_12048_wf⟩

set_option maxHeartbeats 4000000 in
/-- The first gathered input: take of the transposed x at idx_a. -/
theorem V_v1 (c : Dev nD) :
    (V m c main_v1 : S8192x2048.Idx → Elt F .f32)
      = takeRows sf tk (transpose S8192x2048 [1, 0] (m ((c : Thread nD τ).loc main_arg0)) Facts₀.transposes_S2048x8192_S8192x2048_1_0)
          (m ((c : Thread nD τ).loc main_arg2)) := by
  dsimp only [Gen.V]
  simp only [Gen.hostOps0, Gen.hostOps0_1, Gen.hostOps0_2, Gen.hostOps0_3, List.flatten_cons, List.flatten_nil, List.append_nil,
    List.cons_append, List.nil_append]
  after_results_simp <;> (try simp only [TRef.ofBuf, TRef.toBuf, cast_eq]) <;> rfl

set_option maxHeartbeats 4000000 in
/-- The second gathered input: take of the transposed x at idx_b. -/
theorem V_v2 (c : Dev nD) :
    (V m c main_v2 : S8192x2048.Idx → Elt F .f32)
      = takeRows sf tk (transpose S8192x2048 [1, 0] (m ((c : Thread nD τ).loc main_arg0)) Facts₀.transposes_S2048x8192_S8192x2048_1_0)
          (m ((c : Thread nD τ).loc main_arg3)) := by
  dsimp only [Gen.V]
  simp only [Gen.hostOps0, Gen.hostOps0_1, Gen.hostOps0_2, Gen.hostOps0_3, List.flatten_cons, List.flatten_nil, List.append_nil,
    List.cons_append, List.nil_append]
  after_results_simp <;> (try simp only [TRef.ofBuf, TRef.toBuf, cast_eq]) <;> rfl

set_option maxHeartbeats 4000000 in
/-- The coefficients: softmax of the weights contracted with the gate table. -/
theorem V_v14 (c : Dev nD) :
    (V m c main_v14 : S8192x4.Idx → Elt F .f32)
      = Host.dotGeneral dot_S8192x16_S16x4_S8192x4_1_0_0_1_n_n none (softmax sf (m ((c : Thread nD τ).loc main_arg1)))
          (fun i => FloatOps.ofBits .f32 (lit0 (S16x4.rowMajor i))) := by
  dsimp only [Gen.V]
  simp only [Gen.hostOps0, Gen.hostOps0_1, Gen.hostOps0_2, Gen.hostOps0_3, List.flatten_cons, List.flatten_nil, List.append_nil,
    List.cons_append, List.nil_append]
  after_results_simp <;> (try simp only [TRef.ofBuf, TRef.toBuf, cast_eq]) <;> rfl

end Cert.KernelIdeal.HostSide

end
-- ==== Proof.Coef.lean ====
/-
  The four affine coefficients of an output neuron: the row of softmax weights w (j, .) contracted with the fixed
  16 x 4 table of gate coefficients. Read at (j, q) the host's contraction is the sum over the 16 gates k of
  w (j, k) * table (k, q); the table's entries are the exact words of 0, 1, -1, 2, -2.
-/
import proofs.«429455_j82042465289181_2_alg».proof.KernelIdeal
import proofs.«429455_j82042465289181_2_alg».proof.Proof.Gen.KernelIdeal
import Idealize.ShloMosaic.PureOps.Ideal
import Idealize.ShloMosaic.PureOps.Ideal.Laws
import Idealize.ShloMosaic.Lib.ValueIdx

noncomputable section

namespace Cert.KernelIdeal.Coef

open Cert.KernelIdeal Idealize.ShloMosaic Idealize.ShloMosaic.ValueIdx

theorem lhs_0 (i : S8192x4.Idx) (q : dot_S8192x16_S16x4_S8192x4_1_0_0_1_n_n.contr.Idx) :
    (dot_S8192x16_S16x4_S8192x4_1_0_0_1_n_n.lhsIdx i q 0).val = (i 0).val := by
  unfold DotDims.lhsIdx
  rw [dif_neg (show ¬(0 : Fin S8192x16.rank) ∈ dot_S8192x16_S16x4_S8192x4_1_0_0_1_n_n.lhsBatch by decide), dif_pos (show (0 : Fin S8192x16.rank) ∈ dot_S8192x16_S16x4_S8192x4_1_0_0_1_n_n.lhsNonContracting by decide)]
  rfl
theorem lhs_1 (i : S8192x4.Idx) (q : dot_S8192x16_S16x4_S8192x4_1_0_0_1_n_n.contr.Idx) :
    (dot_S8192x16_S16x4_S8192x4_1_0_0_1_n_n.lhsIdx i q 1).val = (q ⟨0, by decide⟩).val :=
  dot_S8192x16_S16x4_S8192x4_1_0_0_1_n_n.lhsIdx_val_of_single rfl i q
theorem rhs_0 (i : S8192x4.Idx) (q : dot_S8192x16_S16x4_S8192x4_1_0_0_1_n_n.contr.Idx) :
    (dot_S8192x16_S16x4_S8192x4_1_0_0_1_n_n.rhsIdx i q 0).val = (q ⟨0, by decide⟩).val :=
  dot_S8192x16_S16x4_S8192x4_1_0_0_1_n_n.rhsIdx_val_of_single rfl i q
theorem rhs_1 (i : S8192x4.Idx) (q : dot_S8192x16_S16x4_S8192x4_1_0_0_1_n_n.contr.Idx) :
    (dot_S8192x16_S16x4_S8192x4_1_0_0_1_n_n.rhsIdx i q 1).val = (i 1).val := by
  unfold DotDims.rhsIdx
  rw [dif_neg (show ¬(1 : Fin S16x4.rank) ∈ dot_S8192x16_S16x4_S8192x4_1_0_0_1_n_n.rhsBatch by decide), dif_pos (show (1 : Fin S16x4.rank) ∈ dot_S8192x16_S16x4_S8192x4_1_0_0_1_n_n.rhsNonContracting by decide)]
  rfl

/-- The contraction at (j, q): the sum over the gates k of w (j, k) * M (k, q). -/
theorem contract_apply (w : FVec Ideal S8192x16 .f32) (M : FVec Ideal S16x4 .f32) (j : Fin 8192) (q : Fin 4) :
    Host.dotGeneral dot_S8192x16_S16x4_S8192x4_1_0_0_1_n_n none w M (ix2 j q) = ∑ k : Fin 16, w (ix2 j k) * M (ix2 k q) := by
  simp only [Host.dotGeneral]
  rw [Ideal.dotGeneral_apply, ← Equiv.sum_comp (ValueIdx.contrEquiv1 dot_S8192x16_S16x4_S8192x4_1_0_0_1_n_n 16 rfl rfl).symm]
  refine Finset.sum_congr rfl fun k _ => ?_
  have hk := ValueIdx.contrEquiv1_symm_val dot_S8192x16_S16x4_S8192x4_1_0_0_1_n_n 16 rfl rfl k
  have el : dot_S8192x16_S16x4_S8192x4_1_0_0_1_n_n.lhsIdx (ix2 j q) ((ValueIdx.contrEquiv1 dot_S8192x16_S16x4_S8192x4_1_0_0_1_n_n 16 rfl rfl).symm k) = ix2 j k := funext fun a => Fin.ext (by
    match a with
    | ⟨0, _⟩ => exact lhs_0 _ _
    | ⟨1, _⟩ => exact (lhs_1 _ _).trans hk)
  have er : dot_S8192x16_S16x4_S8192x4_1_0_0_1_n_n.rhsIdx (ix2 j q) ((ValueIdx.contrEquiv1 dot_S8192x16_S16x4_S8192x4_1_0_0_1_n_n 16 rfl rfl).symm k) = ix2 k q := funext fun a => Fin.ext (by
    match a with
    | ⟨0, _⟩ => exact (rhs_0 _ _).trans hk
    | ⟨1, _⟩ => exact rhs_1 _ _)
  rw [el, er]

/-- A sum over sixteen indices, written out. -/
theorem sum16 {M : Type} [AddCommMonoid M] (f : Fin 16 → M) :
    ∑ k, f k = f 0 + (f 1 + (f 2 + (f 3 + (f 4 + (f 5 + (f 6 + (f 7 + (f 8 + (f 9 + (f 10 + (f 11 + (f 12 + (f 13 + (f 14 + f 15)))))))))))))) := by
  simp only [Fin.sum_univ_succ, Fin.sum_univ_zero, add_zero]
  rfl

/-- The table's five words as reals. -/
theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee]
  norm_cast
  norm_num
theorem word_neg_one : Ideal.ofBits .f32 0xBF800000#32 = ((-1 : ℝ) : EReal) := by
  simp [Ideal.ofBits, Ideal.ieee]
  norm_cast
  norm_num
theorem word_two : Ideal.ofBits .f32 0x40000000#32 = ((2 : ℝ) : EReal) := by
  simp [Ideal.ofBits, Ideal.ieee]
  norm_cast
  norm_num
theorem word_neg_two : Ideal.ofBits .f32 0xC0000000#32 = ((-2 : ℝ) : EReal) := by
  simp [Ideal.ofBits, Ideal.ieee]
  norm_cast
  norm_num

/-- The table's entry for gate k and coefficient q, at the ideal instance. -/
abbrev T (k : Fin 16) (q : Fin 4) : EReal := Ideal.ofBits .f32 (lit0 (S16x4.rowMajor (ix2 k q)))

/-- Column 0 of the table contracted with real weights. -/
theorem column0 (w : Fin 16 → ℝ) : ∑ k : Fin 16, ((w k : ℝ) : EReal) * T k 0 = ((w 2 + w 3 + w 6 + w 7 - w 8 - w 9 - w 12 - w 13 : ℝ) : EReal) := by
  rw [sum16]
  show ((w 0 : ℝ) : EReal) * Ideal.ofBits .f32 0x00000000#32 + (((w 1 : ℝ) : EReal) * Ideal.ofBits .f32 0x00000000#32 + (((w 2 : ℝ) : EReal) * Ideal.ofBits .f32 0x3F800000#32 + (((w 3 : ℝ) : EReal) * Ideal.ofBits .f32 0x3F800000#32 + (((w 4 : ℝ) : EReal) * Ideal.ofBits .f32 0x00000000#32 + (((w 5 : ℝ) : EReal) * Ideal.ofBits .f32 0x00000000#32 + (((w 6 : ℝ) : EReal) * Ideal.ofBits .f32 0x3F800000#32 + (((w 7 : ℝ) : EReal) * Ideal.ofBits .f32 0x3F800000#32 + (((w 8 : ℝ) : EReal) * Ideal.ofBits .f32 0xBF800000#32 + (((w 9 : ℝ) : EReal) * Ideal.ofBits .f32 0xBF800000#32 + (((w 10 : ℝ) : EReal) * Ideal.ofBits .f32 0x00000000#32 + (((w 11 : ℝ) : EReal) * Ideal.ofBits .f32 0x00000000#32 + (((w 12 : ℝ) : EReal) * Ideal.ofBits .f32 0xBF800000#32 + (((w 13 : ℝ) : EReal) * Ideal.ofBits .f32 0xBF800000#32 + (((w 14 : ℝ) : EReal) * Ideal.ofBits .f32 0x00000000#32 + (((w 15 : ℝ) : EReal) * Ideal.ofBits .f32 0x00000000#32))))))))))))))) = _
  simp only [word_zero, word_one, word_neg_one, word_two, word_neg_two, ← EReal.coe_mul, ← EReal.coe_add]
  congr 1
  ring

/-- Column 1 of the table contracted with real weights. -/
theorem column1 (w : Fin 16 → ℝ) : ∑ k : Fin 16, ((w k : ℝ) : EReal) * T k 1 = ((w 4 + w 5 + w 6 + w 7 - w 8 - w 9 - w 10 - w 11 : ℝ) : EReal) := by
  rw [sum16]
  show ((w 0 : ℝ) : EReal) * Ideal.ofBits .f32 0x00000000#32 + (((w 1 : ℝ) : EReal) * Ideal.ofBits .f32 0x00000000#32 + (((w 2 : ℝ) : EReal) * Ideal.ofBits .f32 0x00000000#32 + (((w 3 : ℝ) : EReal) * Ideal.ofBits .f32 0x00000000#32 + (((w 4 : ℝ) : EReal) * Ideal.ofBits .f32 0x3F800000#32 + (((w 5 : ℝ) : EReal) * Ideal.ofBits .f32 0x3F800000#32 + (((w 6 : ℝ) : EReal) * Ideal.ofBits .f32 0x3F800000#32 + (((w 7 : ℝ) : EReal) * Ideal.ofBits .f32 0x3F800000#32 + (((w 8 : ℝ) : EReal) * Ideal.ofBits .f32 0xBF800000#32 + (((w 9 : ℝ) : EReal) * Ideal.ofBits .f32 0xBF800000#32 + (((w 10 : ℝ) : EReal) * Ideal.ofBits .f32 0xBF800000#32 + (((w 11 : ℝ) : EReal) * Ideal.ofBits .f32 0xBF800000#32 + (((w 12 : ℝ) : EReal) * Ideal.ofBits .f32 0x00000000#32 + (((w 13 : ℝ) : EReal) * Ideal.ofBits .f32 0x00000000#32 + (((w 14 : ℝ) : EReal) * Ideal.ofBits .f32 0x00000000#32 + (((w 15 : ℝ) : EReal) * Ideal.ofBits .f32 0x00000000#32))))))))))))))) = _
  simp only [word_zero, word_one, word_neg_one, word_two, word_neg_two, ← EReal.coe_mul, ← EReal.coe_add]
  congr 1
  ring

/-- Column 2 of the table contracted with real weights. -/
theorem column2 (w : Fin 16 → ℝ) : ∑ k : Fin 16, ((w k : ℝ) : EReal) * T k 2 = ((w 1 - w 2 - w 4 - 2 * w 6 - w 7 + w 8 + 2 * w 9 + w 11 + w 13 - w 14 : ℝ) : EReal) := by
  rw [sum16]
  show ((w 0 : ℝ) : EReal) * Ideal.ofBits .f32 0x00000000#32 + (((w 1 : ℝ) : EReal) * Ideal.ofBits .f32 0x3F800000#32 + (((w 2 : ℝ) : EReal) * Ideal.ofBits .f32 0xBF800000#32 + (((w 3 : ℝ) : EReal) * Ideal.ofBits .f32 0x00000000#32 + (((w 4 : ℝ) : EReal) * Ideal.ofBits .f32 0xBF800000#32 + (((w 5 : ℝ) : EReal) * Ideal.ofBits .f32 0x00000000#32 + (((w 6 : ℝ) : EReal) * Ideal.ofBits .f32 0xC0000000#32 + (((w 7 : ℝ) : EReal) * Ideal.ofBits .f32 0xBF800000#32 + (((w 8 : ℝ) : EReal) * Ideal.ofBits .f32 0x3F800000#32 + (((w 9 : ℝ) : EReal) * Ideal.ofBits .f32 0x40000000#32 + (((w 10 : ℝ) : EReal) * Ideal.ofBits .f32 0x00000000#32 + (((w 11 : ℝ) : EReal) * Ideal.ofBits .f32 0x3F800000#32 + (((w 12 : ℝ) : EReal) * Ideal.ofBits .f32 0x00000000#32 + (((w 13 : ℝ) : EReal) * Ideal.ofBits .f32 0x3F800000#32 + (((w 14 : ℝ) : EReal) * Ideal.ofBits .f32 0xBF800000#32 + (((w 15 : ℝ) : EReal) * Ideal.ofBits .f32 0x00000000#32))))))))))))))) = _
  simp only [word_zero, word_one, word_neg_one, word_two, word_neg_two, ← EReal.coe_mul, ← EReal.coe_add]
  congr 1
  ring

/-- Column 3 of the table contracted with real weights. -/
theorem column3 (w : Fin 16 → ℝ) : ∑ k : Fin 16, ((w k : ℝ) : EReal) * T k 3 = ((w 8 + w 9 + w 10 + w 11 + w 12 + w 13 + w 14 + w 15 : ℝ) : EReal) := by
  rw [sum16]
  show ((w 0 : ℝ) : EReal) * Ideal.ofBits .f32 0x00000000#32 + (((w 1 : ℝ) : EReal) * Ideal.ofBits .f32 0x00000000#32 + (((w 2 : ℝ) : EReal) * Ideal.ofBits .f32 0x00000000#32 + (((w 3 : ℝ) : EReal) * Ideal.ofBits .f32 0x00000000#32 + (((w 4 : ℝ) : EReal) * Ideal.ofBits .f32 0x00000000#32 + (((w 5 : ℝ) : EReal) * Ideal.ofBits .f32 0x00000000#32 + (((w 6 : ℝ) : EReal) * Ideal.ofBits .f32 0x00000000#32 + (((w 7 : ℝ) : EReal) * Ideal.ofBits .f32 0x00000000#32 + (((w 8 : ℝ) : EReal) * Ideal.ofBits .f32 0x3F800000#32 + (((w 9 : ℝ) : EReal) * Ideal.ofBits .f32 0x3F800000#32 + (((w 10 : ℝ) : EReal) * Ideal.ofBits .f32 0x3F800000#32 + (((w 11 : ℝ) : EReal) * Ideal.ofBits .f32 0x3F800000#32 + (((w 12 : ℝ) : EReal) * Ideal.ofBits .f32 0x3F800000#32 + (((w 13 : ℝ) : EReal) * Ideal.ofBits .f32 0x3F800000#32 + (((w 14 : ℝ) : EReal) * Ideal.ofBits .f32 0x3F800000#32 + (((w 15 : ℝ) : EReal) * Ideal.ofBits .f32 0x3F800000#32))))))))))))))) = _
  simp only [word_zero, word_one, word_neg_one, word_two, word_neg_two, ← EReal.coe_mul, ← EReal.coe_add]
  congr 1
  ring

/-- With real weights and real inputs the kernel's combination is the real polynomial
    A * a + B * b + C * (a * b) + D whose coefficients are the table's columns contracted with the weights. -/
theorem kernel_collapse (w : Fin 16 → ℝ) (a b : ℝ) :
    (((∑ k : Fin 16, ((w k : ℝ) : EReal) * T k 0) * (a : EReal) + (∑ k : Fin 16, ((w k : ℝ) : EReal) * T k 1) * (b : EReal))
      + (∑ k : Fin 16, ((w k : ℝ) : EReal) * T k 2) * ((a : EReal) * (b : EReal))) + (∑ k : Fin 16, ((w k : ℝ) : EReal) * T k 3)
    = (((w 2 + w 3 + w 6 + w 7 - w 8 - w 9 - w 12 - w 13) * a + (w 4 + w 5 + w 6 + w 7 - w 8 - w 9 - w 10 - w 11) * b + (w 1 - w 2 - w 4 - 2 * w 6 - w 7 + w 8 + 2 * w 9 + w 11 + w 13 - w 14) * (a * b) + (w 8 + w 9 + w 10 + w 11 + w 12 + w 13 + w 14 + w 15) : ℝ) : EReal) := by
  rw [column0, column1, column2, column3]
  simp only [← EReal.coe_mul, ← EReal.coe_add]

end Cert.KernelIdeal.Coef

end
-- ==== Proof.SoftmaxReal.lean ====
/-
  Softmax over a row of real logits is real, at the ideal instance (a float is an extended real).
  Every logit is a real, so the row maximum (a fold of max over 16 reals started from -inf, then max with -inf) is a
  real; w - max is a real and its exponential a positive real; the row sum of 16 positive reals is a positive real;
  and a real over a nonzero real is a real.
-/
import proofs.«429455_j82042465289181_2_alg».proof.Proof.Shared
import Idealize.ShloMosaic.PureOps.Ideal.Laws
import Idealize.ShloMosaic.Lib.IdealHost

noncomputable section

namespace Cert.Logic

open Idealize.ShloMosaic

/-- The larger of a real and a value that is -inf or a real is a real. -/
private theorem max_real {a b : EReal} (ha : ∃ r : ℝ, a = (r : EReal)) (hb : b = ⊥ ∨ ∃ r : ℝ, b = (r : EReal)) :
    ∃ r : ℝ, max a b = (r : EReal) := by
  rcases hb with rfl | hb
  · rw [max_bot_right]; exact ha
  · rcases max_choice a b with h | h
    · rw [h]; exact ha
    · rw [h]; exact hb

/-- A fold of the maximum, started from -inf, over finitely many reals is -inf or a real. -/
private theorem fold_max_bot_or_real {ι : Type} [DecidableEq ι] (g : EReal → EReal → EReal) [Std.Commutative g]
    [Std.Associative g] (hg : ∀ x y, g x y = max x y) (f : ι → EReal) (hf : ∀ i, ∃ r : ℝ, f i = (r : EReal))
    (s : Finset ι) : s.fold g ⊥ f = ⊥ ∨ ∃ r : ℝ, s.fold g ⊥ f = (r : EReal) := by
  induction s using Finset.induction_on with
  | empty => exact Or.inl (Finset.fold_empty)
  | insert a s ha ih => right; rw [Finset.fold_insert ha, hg]; exact max_real (hf a) ih

/-- Over a nonempty set that fold is a real: the largest of the values. -/
private theorem fold_max_real {ι : Type} [DecidableEq ι] (g : EReal → EReal → EReal) [Std.Commutative g]
    [Std.Associative g] (hg : ∀ x y, g x y = max x y) (f : ι → EReal) (hf : ∀ i, ∃ r : ℝ, f i = (r : EReal))
    (s : Finset ι) (hs : s.Nonempty) : ∃ r : ℝ, s.fold g ⊥ f = (r : EReal) := by
  obtain ⟨a, ha⟩ := hs
  rw [← Finset.insert_erase ha, Finset.fold_insert (Finset.notMem_erase a s), hg]
  exact max_real (hf a) (fold_max_bot_or_real g hg f hf (s.erase a))

/-- A finite sum of positive reals is a nonnegative real, positive when the set is nonempty. -/
private theorem sum_pos_real {ι : Type} [DecidableEq ι] (f : ι → EReal) (hf : ∀ i, ∃ r : ℝ, 0 < r ∧ f i = (r : EReal))
    (s : Finset ι) : ∃ r : ℝ, (s.Nonempty → 0 < r) ∧ 0 ≤ r ∧ ∑ i ∈ s, f i = (r : EReal) := by
  induction s using Finset.induction_on with
  | empty => exact ⟨0, fun h => absurd h Finset.not_nonempty_empty, le_refl _, by simp⟩
  | insert a s ha ih =>
    obtain ⟨r, _, hr0, hr⟩ := ih
    obtain ⟨q, hq0, hq⟩ := hf a
    refine ⟨q + r, fun _ => by linarith, by linarith, ?_⟩
    rw [Finset.sum_insert ha, hq, hr, EReal.coe_add]

/-- A property of every element of an array holds of every element of its broadcast. -/
private theorem broadcastInDim_forall {s t : Shape} {α : Type} (dims : Fin s.rank → Fin t.rank) (h : s.BroadcastsInDim t dims)
    (x : s.Idx → α) (P : α → Prop) (hx : ∀ k, P (x k)) (j : t.Idx) : P (broadcastInDim t dims h x j) := hx _

/-- The pattern of -inf denotes the bottom element. -/
private theorem ofBits_neg_inf : Ideal.ofBits .f32 0xFF800000#32 = ⊥ := by simp [Ideal.ofBits, Ideal.ieee]

/-- A row of 16 logits has a first one. -/
private theorem row_nonempty : (Finset.univ : Finset (Fin (R16.size 1))).Nonempty :=
  ⟨⟨0, by decide⟩, Finset.mem_univ _⟩

/-- The maximum of a row of real logits is a real. -/
theorem rowMax_real (hf : ShapeFacts) (W : FVec Ideal R16 .f32) (hW : ∀ i, ∃ r : ℝ, W i = (r : EReal)) (i : R16.Idx) :
    ∃ r : ℝ, rowMax (F := Ideal) hf W i = (r : EReal) := by
  have hred : R16.Reduces [1] Rv := by decide
  refine broadcastInDim_forall _ hf.bC _ (fun x : EReal => ∃ r : ℝ, x = (r : EReal))
    (broadcastInDim_forall _ hf.bV _ (fun x : EReal => ∃ r : ℝ, x = (r : EReal)) ?_) i
  intro k
  show ∃ r : ℝ, max (Ideal.ofBits .f32 0xFF800000#32)
    (Host.reduce FloatOps.maximumf W (constant (F := Ideal) Sc .f32 0xFF800000#32) hf.red hf.hS k) = (r : EReal)
  rw [ofBits_neg_inf, max_bot_left, Host.reduce_eq_fold_single FloatOps.maximumf W _ hf.red hred hf.hS k]
  have h0 : constant (F := Ideal) Sc .f32 0xFF800000#32 (Shape.Idx.first hf.hS) = ⊥ := ofBits_neg_inf
  rw [h0]
  exact fold_max_real _ (fun _ _ => rfl) _ (fun k' => hW _) _ row_nonempty

/-- Each shifted exponential exp (w - max) of a row of real logits is a positive real. -/
theorem expShift_pos_real (hf : ShapeFacts) (W : FVec Ideal R16 .f32) (hW : ∀ i, ∃ r : ℝ, W i = (r : EReal))
    (i : R16.Idx) : ∃ r : ℝ, 0 < r ∧ expShift (F := Ideal) hf W i = (r : EReal) := by
  obtain ⟨w, hw⟩ := hW i
  obtain ⟨m, hm⟩ := rowMax_real hf W hW i
  refine ⟨Real.exp (w - m), Real.exp_pos _, ?_⟩
  show Ideal.exp (W i - rowMax (F := Ideal) hf W i) = _
  rw [hw, hm, ← EReal.coe_sub, Ideal.exp_coe]

/-- The row sum of the shifted exponentials is a positive real: 16 positive reals added to zero. -/
theorem rowSum_pos_real (hf : ShapeFacts) (W : FVec Ideal R16 .f32) (hW : ∀ i, ∃ r : ℝ, W i = (r : EReal))
    (k : Rv.Idx) : ∃ r : ℝ, 0 < r ∧
      Host.reduceAdd (expShift (F := Ideal) hf W) (constant Sc .f32 0x00000000#32) hf.red hf.hS k = (r : EReal) := by
  have hred : R16.Reduces [1] Rv := by decide
  show ∃ r : ℝ, 0 < r ∧
    Ideal.hostReduceAdd hf.red (expShift (F := Ideal) hf W) (Ideal.ofBits .f32 0x00000000#32) k = (r : EReal)
  rw [Ideal.hostReduceAdd_single hf.red hred, Ideal.ofBits_zero_f32, zero_add]
  obtain ⟨r, hpos, _, hr⟩ := sum_pos_real (fun k' => expShift (F := Ideal) hf W (hred.lift k k'))
    (fun k' => expShift_pos_real hf W hW _) Finset.univ
  exact ⟨r, hpos row_nonempty, hr⟩

/-- softmax of a row of real logits is real: a positive real over a positive real. -/
theorem softmax_real (hf : ShapeFacts) (W : FVec Ideal R16 .f32) (hW : ∀ i, ∃ r : ℝ, W i = (r : EReal)) :
    ∀ i, ∃ r : ℝ, softmax (F := Ideal) hf W i = (r : EReal) := by
  intro i
  obtain ⟨a, _, ha⟩ := expShift_pos_real hf W hW i
  obtain ⟨s, hs0, hs⟩ := broadcastInDim_forall _ hf.bC _ (fun x : EReal => ∃ r : ℝ, 0 < r ∧ x = (r : EReal))
    (broadcastInDim_forall _ hf.bV _ (fun x : EReal => ∃ r : ℝ, 0 < r ∧ x = (r : EReal))
      (rowSum_pos_real hf W hW)) i
  refine ⟨a * (1 / s), ?_⟩
  show Ideal.div (expShift (F := Ideal) hf W i) _ = _
  rw [ha, hs, Ideal.div_coe hs0.ne', EReal.coe_mul]

end Cert.Logic

end
-- ==== Proof.PreDecode.lean ====
/-
  The printed precondition read back. It is a conjunction of four all-reductions: every entry of x and of W has
  absolute value below +inf, so it is a real number; every entry of the two index vectors lies in [-8192, 8192) as a
  signed word. A normalised index (v + 8192 when v is negative, v otherwise) of a word in that range lies in [0, 8192).
-/
import proofs.«429455_j82042465289181_2_alg».proof.Pre_finite_inputs
import proofs.«429455_j82042465289181_2_alg».proof.Proof.Shared
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Logic

open Idealize.ShloMosaic

/-- The result shape of an all-reduction has one index. -/
instance pre_scalar_subsingleton : Subsingleton Cert.Pre_finite_inputs.S_.Idx := ⟨fun a b => funext fun d => d.elim0⟩

/-- An extended real whose absolute value is below +inf is a real number. -/
theorem real_of_abs_lt_inf (a : Ideal .f32)
    (h : FloatOps.cmpf .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  unfold Ideal.cmp at h
  induction a using EReal.rec with
  | bot => simp at h
  | top => simp at h
  | coe r => exact ⟨r, rfl⟩

/-- A signed word in [-8192, 8192), from the two compares against the constants -8192 and 8192. -/
theorem range_of_cmp (w : BitVec 32) (h1 : IntOp.cmpi .sge w 4294959104#32 = 1#1) (h2 : IntOp.cmpi .slt w 8192#32 = 1#1) :
    -8192 ≤ w.toInt ∧ w.toInt < 8192 := by
  rw [IntOp.cmpi_sge] at h1
  rw [IntOp.cmpi_slt] at h2
  have e1 : (4294959104#32 : BitVec 32).toInt = -8192 := by decide
  have e2 : (8192#32 : BitVec 32).toInt = 8192 := by decide
  rw [e1] at h1
  rw [e2] at h2
  exact ⟨h1, h2⟩

theorem pre_decode [Cert.Pre_finite_inputs.Facts] (x : FVec Ideal Cert.Pre_finite_inputs.S2048x8192 .f32)
    (W : FVec Ideal Cert.Pre_finite_inputs.S8192x16 .f32) (ia ib : IVec Cert.Pre_finite_inputs.S8192 32)
    (h : Cert.Pre_finite_inputs.fn (F := Ideal) x W ia ib = fun _ => 1#1) :
    (∀ i, ∃ r : ℝ, x i = (r : EReal)) ∧ (∀ i, ∃ r : ℝ, W i = (r : EReal)) ∧
      (∀ j, -8192 ≤ (ia j).toInt ∧ (ia j).toInt < 8192) ∧ (∀ j, -8192 ≤ (ib j).toInt ∧ (ib j).toInt < 8192) := by
  have e := congrFun h ValueIdx.ix0
  dsimp only [Cert.Pre_finite_inputs.fn, Cert.Pre_finite_inputs.fn_part1] at e
  change IntOp.andi (IntOp.andi (IntOp.andi _ _) _) _ = 1#1 at e
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun j => ?_, fun j => ?_⟩
  · exact real_of_abs_lt_inf (x i) (Host.reduce_andi_all _ _ _ _ _ e1 i)
  · exact real_of_abs_lt_inf (W i) (Host.reduce_andi_all _ _ _ _ _ e2 i)
  · have q := Host.reduce_andi_all _ _ _ _ _ e3 j
    obtain ⟨q1, q2⟩ := IntOp.andi_eq_one.1 q
    exact range_of_cmp (ia j) q1 q2
  · have q := Host.reduce_andi_all _ _ _ _ _ e4 j
    obtain ⟨q1, q2⟩ := IntOp.andi_eq_one.1 q
    exact range_of_cmp (ib j) q1 q2

/-- The normalised index at a lane: v + 8192 where v is negative, v otherwise. -/
theorem norm_apply (hf : ShapeFacts) (v : IVec Rv 32) (j : Rv.Idx) :
    norm hf v j = if IntOp.cmpi .slt (v j) 0#32 = 1#1 then v j + 8192#32 else v j := rfl

theorem norm_inrange (hf : ShapeFacts) (v : IVec Rv 32) (j : Rv.Idx) (h1 : -8192 ≤ (v j).toInt) (h2 : (v j).toInt < 8192) :
    IntOp.cmpi .sge (norm hf v j) 0#32 = 1#1 ∧ IntOp.cmpi .sle (norm hf v j) 8191#32 = 1#1 ∧
      (norm hf v j).toInt.toNat < 8192 ∧ 0 ≤ (norm hf v j).toInt := by
  rw [norm_apply, IntOp.cmpi_sge, IntOp.cmpi_sle]
  have e0 : (0#32 : BitVec 32).toInt = 0 := by decide
  have e1 : (8191#32 : BitVec 32).toInt = 8191 := by decide
  have e2 : (8192#32 : BitVec 32).toInt = 8192 := by decide
  rw [e0, e1]
  by_cases hneg : IntOp.cmpi .slt (v j) 0#32 = 1#1
  · rw [if_pos hneg]
    rw [IntOp.cmpi_slt, e0] at hneg
    have ha : (v j + 8192#32).toInt = (v j).toInt + 8192 := by
      rw [BitVec.toInt_add, e2]
      exact Int.bmod_eq_of_le_mul_two (by omega) (by omega)
    rw [ha]
    omega
  · rw [if_neg hneg]
    rw [IntOp.cmpi_slt, e0] at hneg
    omega

end Cert.Logic

end
-- ==== Proof.RefValue.lean ====
/-
  The reference program read at one element. After the two gathers a = x[:, idx_a] and b = x[:, idx_b] and the softmax
  of the gate logits, every stage is elementwise: gate k's weight is column k of the softmax broadcast over the rows, and
  the result is the running sum of weight times gate value over the sixteen gates. Over the reals that sum is affine in
  a, b and ab.
-/
import proofs.«429455_j82042465289181_2_alg».proof.Proof.Gen.ReferenceIdeal.Read
import Idealize.ShloMosaic.Lib.ValueIdx
import Idealize.ShloMosaic.Lib.IdealHost
import Idealize.ShloMosaic.PureOps.Ideal.Laws
import Mathlib.Tactic.Ring

noncomputable section

namespace Cert.ReferenceIdeal.RefValue

open Cert.ReferenceIdeal Cert.ReferenceIdeal.Gen Cert.ReferenceIdeal.Read Idealize.ShloMosaic Idealize.ShloMosaic.ValueIdx

/-- The reference's gate mixture at one element, in the reference's own order and grouping: the running sum starts at 0
    and adds, gate by gate, the weight times the gate's value of a and b (0, ab, a - ab, a, b - ab, b, a + b - 2ab,
    a + b - ab, their complements to 1 in reverse order, and 1). -/
def gates (w : Fin 16 → EReal) (a b : EReal) : EReal :=
  ((((((((((((((((0 + w 0 * 0) + w 1 * (a * b)) + w 2 * (a - a * b)) + w 3 * a) + w 4 * (b - a * b)) + w 5 * b)
    + w 6 * ((a + b) - 2 * (a * b))) + w 7 * ((a + b) - a * b)) + w 8 * (1 - ((a + b) - a * b)))
    + w 9 * (1 - ((a + b) - 2 * (a * b)))) + w 10 * (1 - b)) + w 11 * ((1 - b) + a * b)) + w 12 * (1 - a))
    + w 13 * ((1 - a) + a * b)) + w 14 * (1 - a * b)) + w 15 * 1)

/-- The pattern 0x40000000 denotes 2. -/
theorem ofBits_two_f32 : Ideal.ofBits .f32 0x40000000#32 = 2 := by
  simp [Ideal.ofBits, Ideal.ieee, -EReal.coe_mul]; norm_num; rfl

/-- Gate 0's weight, sliced from column 0 of the softmax, reshaped and broadcast over the rows, reads the softmax at (j, 0). -/
theorem wcol0 (x1 : (⟨S8192x16, .f32⟩ : BufTy).Contents (Elt Ideal)) (r : Fin 2048) (j : Fin 8192) :
    val_main_v62 (F := Ideal) x1 (ix2 r j) = val_main_v24 (F := Ideal) x1 (ix2 j (0 : Fin 16)) := by
  rw [val_main_v62_apply, val_main_v61_apply, val_main_v60_apply, val_main_v59_apply]
  refine congrArg _ ?_
  funext a
  apply Fin.ext
  match a with
  | ⟨0, _⟩ => exact Nat.div_one _
  | ⟨1, _⟩ => rfl

/-- Gate 1's weight, sliced from column 1 of the softmax, reshaped and broadcast over the rows, reads the softmax at (j, 1). -/
theorem wcol1 (x1 : (⟨S8192x16, .f32⟩ : BufTy).Contents (Elt Ideal)) (r : Fin 2048) (j : Fin 8192) :
    val_main_v68 (F := Ideal) x1 (ix2 r j) = val_main_v24 (F := Ideal) x1 (ix2 j (1 : Fin 16)) := by
  rw [val_main_v68_apply, val_main_v67_apply, val_main_v66_apply, val_main_v65_apply]
  refine congrArg _ ?_
  funext a
  apply Fin.ext
  match a with
  | ⟨0, _⟩ => exact Nat.div_one _
  | ⟨1, _⟩ => rfl

/-- Gate 2's weight, sliced from column 2 of the softmax, reshaped and broadcast over the rows, reads the softmax at (j, 2). -/
theorem wcol2 (x1 : (⟨S8192x16, .f32⟩ : BufTy).Contents (Elt Ideal)) (r : Fin 2048) (j : Fin 8192) :
    val_main_v74 (F := Ideal) x1 (ix2 r j) = val_main_v24 (F := Ideal) x1 (ix2 j (2 : Fin 16)) := by
  rw [val_main_v74_apply, val_main_v73_apply, val_main_v72_apply, val_main_v71_apply]
  refine congrArg _ ?_
  funext a
  apply Fin.ext
  match a with
  | ⟨0, _⟩ => exact Nat.div_one _
  | ⟨1, _⟩ => rfl

/-- Gate 3's weight, sliced from column 3 of the softmax, reshaped and broadcast over the rows, reads the softmax at (j, 3). -/
theorem wcol3 (x1 : (⟨S8192x16, .f32⟩ : BufTy).Contents (Elt Ideal)) (r : Fin 2048) (j : Fin 8192) :
    val_main_v80 (F := Ideal) x1 (ix2 r j) = val_main_v24 (F := Ideal) x1 (ix2 j (3 : Fin 16)) := by
  rw [val_main_v80_apply, val_main_v79_apply, val_main_v78_apply, val_main_v77_apply]
  refine congrArg _ ?_
  funext a
  apply Fin.ext
  match a with
  | ⟨0, _⟩ => exact Nat.div_one _
  | ⟨1, _⟩ => rfl

/-- Gate 4's weight, sliced from column 4 of the softmax, reshaped and broadcast over the rows, reads the softmax at (j, 4). -/
theorem wcol4 (x1 : (⟨S8192x16, .f32⟩ : BufTy).Contents (Elt Ideal)) (r : Fin 2048) (j : Fin 8192) :
    val_main_v86 (F := Ideal) x1 (ix2 r j) = val_main_v24 (F := Ideal) x1 (ix2 j (4 : Fin 16)) := by
  rw [val_main_v86_apply, val_main_v85_apply, val_main_v84_apply, val_main_v83_apply]
  refine congrArg _ ?_
  funext a
  apply Fin.ext
  match a with
  | ⟨0, _⟩ => exact Nat.div_one _
  | ⟨1, _⟩ => rfl

/-- Gate 5's weight, sliced from column 5 of the softmax, reshaped and broadcast over the rows, reads the softmax at (j, 5). -/
theorem wcol5 (x1 : (⟨S8192x16, .f32⟩ : BufTy).Contents (Elt Ideal)) (r : Fin 2048) (j : Fin 8192) :
    val_main_v92 (F := Ideal) x1 (ix2 r j) = val_main_v24 (F := Ideal) x1 (ix2 j (5 : Fin 16)) := by
  rw [val_main_v92_apply, val_main_v91_apply, val_main_v90_apply, val_main_v89_apply]
  refine congrArg _ ?_
  funext a
  apply Fin.ext
  match a with
  | ⟨0, _⟩ => exact Nat.div_one _
  | ⟨1, _⟩ => rfl

/-- Gate 6's weight, sliced from column 6 of the softmax, reshaped and broadcast over the rows, reads the softmax at (j, 6). -/
theorem wcol6 (x1 : (⟨S8192x16, .f32⟩ : BufTy).Contents (Elt Ideal)) (r : Fin 2048) (j : Fin 8192) :
    val_main_v98 (F := Ideal) x1 (ix2 r j) = val_main_v24 (F := Ideal) x1 (ix2 j (6 : Fin 16)) := by
  rw [val_main_v98_apply, val_main_v97_apply, val_main_v96_apply, val_main_v95_apply]
  refine congrArg _ ?_
  funext a
  apply Fin.ext
  match a with
  | ⟨0, _⟩ => exact Nat.div_one _
  | ⟨1, _⟩ => rfl

/-- Gate 7's weight, sliced from column 7 of the softmax, reshaped and broadcast over the rows, reads the softmax at (j, 7). -/
theorem wcol7 (x1 : (⟨S8192x16, .f32⟩ : BufTy).Contents (Elt Ideal)) (r : Fin 2048) (j : Fin 8192) :
    val_main_v104 (F := Ideal) x1 (ix2 r j) = val_main_v24 (F := Ideal) x1 (ix2 j (7 : Fin 16)) := by
  rw [val_main_v104_apply, val_main_v103_apply, val_main_v102_apply, val_main_v101_apply]
  refine congrArg _ ?_
  funext a
  apply Fin.ext
  match a with
  | ⟨0, _⟩ => exact Nat.div_one _
  | ⟨1, _⟩ => rfl

/-- Gate 8's weight, sliced from column 8 of the softmax, reshaped and broadcast over the rows, reads the softmax at (j, 8). -/
theorem wcol8 (x1 : (⟨S8192x16, .f32⟩ : BufTy).Contents (Elt Ideal)) (r : Fin 2048) (j : Fin 8192) :
    val_main_v110 (F := Ideal) x1 (ix2 r j) = val_main_v24 (F := Ideal) x1 (ix2 j (8 : Fin 16)) := by
  rw [val_main_v110_apply, val_main_v109_apply, val_main_v108_apply, val_main_v107_apply]
  refine congrArg _ ?_
  funext a
  apply Fin.ext
  match a with
  | ⟨0, _⟩ => exact Nat.div_one _
  | ⟨1, _⟩ => rfl

/-- Gate 9's weight, sliced from column 9 of the softmax, reshaped and broadcast over the rows, reads the softmax at (j, 9). -/
theorem wcol9 (x1 : (⟨S8192x16, .f32⟩ : BufTy).Contents (Elt Ideal)) (r : Fin 2048) (j : Fin 8192) :
    val_main_v116 (F := Ideal) x1 (ix2 r j) = val_main_v24 (F := Ideal) x1 (ix2 j (9 : Fin 16)) := by
  rw [val_main_v116_apply, val_main_v115_apply, val_main_v114_apply, val_main_v113_apply]
  refine congrArg _ ?_
  funext a
  apply Fin.ext
  match a with
  | ⟨0, _⟩ => exact Nat.div_one _
  | ⟨1, _⟩ => rfl

/-- Gate 10's weight, sliced from column 10 of the softmax, reshaped and broadcast over the rows, reads the softmax at (j, 10). -/
theorem wcol10 (x1 : (⟨S8192x16, .f32⟩ : BufTy).Contents (Elt Ideal)) (r : Fin 2048) (j : Fin 8192) :
    val_main_v122 (F := Ideal) x1 (ix2 r j) = val_main_v24 (F := Ideal) x1 (ix2 j (10 : Fin 16)) := by
  rw [val_main_v122_apply, val_main_v121_apply, val_main_v120_apply, val_main_v119_apply]
  refine congrArg _ ?_
  funext a
  apply Fin.ext
  match a with
  | ⟨0, _⟩ => exact Nat.div_one _
  | ⟨1, _⟩ => rfl

/-- Gate 11's weight, sliced from column 11 of the softmax, reshaped and broadcast over the rows, reads the softmax at (j, 11). -/
theorem wcol11 (x1 : (⟨S8192x16, .f32⟩ : BufTy).Contents (Elt Ideal)) (r : Fin 2048) (j : Fin 8192) :
    val_main_v128 (F := Ideal) x1 (ix2 r j) = val_main_v24 (F := Ideal) x1 (ix2 j (11 : Fin 16)) := by
  rw [val_main_v128_apply, val_main_v127_apply, val_main_v126_apply, val_main_v125_apply]
  refine congrArg _ ?_
  funext a
  apply Fin.ext
  match a with
  | ⟨0, _⟩ => exact Nat.div_one _
  | ⟨1, _⟩ => rfl

/-- Gate 12's weight, sliced from column 12 of the softmax, reshaped and broadcast over the rows, reads the softmax at (j, 12). -/
theorem wcol12 (x1 : (⟨S8192x16, .f32⟩ : BufTy).Contents (Elt Ideal)) (r : Fin 2048) (j : Fin 8192) :
    val_main_v134 (F := Ideal) x1 (ix2 r j) = val_main_v24 (F := Ideal) x1 (ix2 j (12 : Fin 16)) := by
  rw [val_main_v134_apply, val_main_v133_apply, val_main_v132_apply, val_main_v131_apply]
  refine congrArg _ ?_
  funext a
  apply Fin.ext
  match a with
  | ⟨0, _⟩ => exact Nat.div_one _
  | ⟨1, _⟩ => rfl

/-- Gate 13's weight, sliced from column 13 of the softmax, reshaped and broadcast over the rows, reads the softmax at (j, 13). -/
theorem wcol13 (x1 : (⟨S8192x16, .f32⟩ : BufTy).Contents (Elt Ideal)) (r : Fin 2048) (j : Fin 8192) :
    val_main_v140 (F := Ideal) x1 (ix2 r j) = val_main_v24 (F := Ideal) x1 (ix2 j (13 : Fin 16)) := by
  rw [val_main_v140_apply, val_main_v139_apply, val_main_v138_apply, val_main_v137_apply]
  refine congrArg _ ?_
  funext a
  apply Fin.ext
  match a with
  | ⟨0, _⟩ => exact Nat.div_one _
  | ⟨1, _⟩ => rfl

/-- Gate 14's weight, sliced from column 14 of the softmax, reshaped and broadcast over the rows, reads the softmax at (j, 14). -/
theorem wcol14 (x1 : (⟨S8192x16, .f32⟩ : BufTy).Contents (Elt Ideal)) (r : Fin 2048) (j : Fin 8192) :
    val_main_v146 (F := Ideal) x1 (ix2 r j) = val_main_v24 (F := Ideal) x1 (ix2 j (14 : Fin 16)) := by
  rw [val_main_v146_apply, val_main_v145_apply, val_main_v144_apply, val_main_v143_apply]
  refine congrArg _ ?_
  funext a
  apply Fin.ext
  match a with
  | ⟨0, _⟩ => exact Nat.div_one _
  | ⟨1, _⟩ => rfl

/-- Gate 15's weight, sliced from column 15 of the softmax, reshaped and broadcast over the rows, reads the softmax at (j, 15). -/
theorem wcol15 (x1 : (⟨S8192x16, .f32⟩ : BufTy).Contents (Elt Ideal)) (r : Fin 2048) (j : Fin 8192) :
    val_main_v152 (F := Ideal) x1 (ix2 r j) = val_main_v24 (F := Ideal) x1 (ix2 j (15 : Fin 16)) := by
  rw [val_main_v152_apply, val_main_v151_apply, val_main_v150_apply, val_main_v149_apply]
  refine congrArg _ ?_
  funext a
  apply Fin.ext
  match a with
  | ⟨0, _⟩ => exact Nat.div_one _
  | ⟨1, _⟩ => rfl

/-- The reference's result at (r, j) is the gate mixture of row j of the softmax, at a = x[r, idx_a[j]] and
    b = x[r, idx_b[j]]: every stage after the two gathers and the softmax is elementwise, the weight columns are read
    by the lemmas above, and the constants are 0, 1 and 2. -/
theorem ref_apply (x0 : (⟨S2048x8192, .f32⟩ : BufTy).Contents (Elt Ideal)) (x1 : (⟨S8192x16, .f32⟩ : BufTy).Contents (Elt Ideal)) (x2 x3 : (⟨S8192, .i32⟩ : BufTy).Contents (Elt Ideal)) (r : Fin 2048) (j : Fin 8192) :
    val_main_v154 (F := Ideal) x0 x1 x2 x3 (ix2 r j)
      = gates (fun k => val_main_v24 (F := Ideal) x1 (ix2 j k)) (val_main_v6 (F := Ideal) x0 x2 (ix2 r j))
          (val_main_v13 (F := Ideal) x0 x3 (ix2 r j)) := by
  unfold gates
  simp only [
    val_main_v154_apply, val_main_v153_apply, val_main_v148_apply, val_main_v147_apply, val_main_v142_apply,
    val_main_v141_apply, val_main_v136_apply, val_main_v135_apply, val_main_v130_apply, val_main_v129_apply,
    val_main_v124_apply, val_main_v123_apply, val_main_v118_apply, val_main_v117_apply, val_main_v112_apply,
    val_main_v111_apply, val_main_v106_apply, val_main_v105_apply, val_main_v100_apply, val_main_v99_apply,
    val_main_v94_apply, val_main_v93_apply, val_main_v88_apply, val_main_v87_apply, val_main_v82_apply,
    val_main_v81_apply, val_main_v76_apply, val_main_v75_apply, val_main_v70_apply, val_main_v69_apply,
    val_main_v64_apply, val_main_v63_apply, wcol0, wcol1, wcol2, wcol3, wcol4, wcol5, wcol6, wcol7, wcol8, wcol9,
    wcol10, wcol11, wcol12, wcol13, wcol14, wcol15, val_main_v57_apply, val_main_v56_apply, val_main_v55_apply,
    val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_v32_apply, val_main_v31_apply, val_main_v30_apply,
    val_main_v29_apply, val_main_v28_apply, val_main_v27_apply, val_main_v26_apply, val_main_v25_apply,
    val_main_v58_apply, val_main_cst_5_apply, val_main_cst_6_apply, val_main_cst_7_apply, val_main_cst_8_apply,
    val_main_cst_9_apply, val_main_cst_10_apply, val_main_cst_11_apply, val_main_cst_12_apply, val_main_cst_13_apply,
    val_main_cst_14_apply, val_main_cst_15_apply, val_main_cst_16_apply, Ideal.ofBits_def, Ideal.addf_def,
    Ideal.mulf_def, Ideal.subf_def, Ideal.ofBits_zero_f32, Ideal.ofBits_one_f32, ofBits_two_f32]

/-- Over the reals the mixture is affine in a, b and ab: collecting the sixteen gates' coefficients. -/
theorem gates_collapse (w : Fin 16 → ℝ) (a b : ℝ) :
    gates (fun k => ((w k : ℝ) : EReal)) (a : EReal) (b : EReal)
      = (((w 2 + w 3 + w 6 + w 7 - w 8 - w 9 - w 12 - w 13) * a + (w 4 + w 5 + w 6 + w 7 - w 8 - w 9 - w 10 - w 11) * b
          + (w 1 - w 2 - w 4 - 2 * w 6 - w 7 + w 8 + 2 * w 9 + w 11 + w 13 - w 14) * (a * b)
          + (w 8 + w 9 + w 10 + w 11 + w 12 + w 13 + w 14 + w 15) : ℝ) : EReal) := by
  have h2 : (2 : EReal) = ((2 : ℝ) : EReal) := rfl
  unfold gates
  beta_reduce
  rw [h2]
  norm_cast
  ring

end Cert.ReferenceIdeal.RefValue

end
-- ==== Proof.Bridge.lean ====
/-
  The two programs compute one function of the arguments the precondition admits.
  For batch row r and output neuron j both read a = x (r, col idx_a j) and b = x (r, col idx_b j), the indices
  normalised and in range, and both weigh with w = softmax (weights) (j, .). With every value a real number the
  kernel's A a + B b + C (a b) + D, its coefficients the gate table contracted with w, and the reference's
  sum over the sixteen gates of w k times the gate's relaxation are the same real polynomial.
-/
import proofs.«429455_j82042465289181_2_alg».proof.Defs
import proofs.«429455_j82042465289181_2_alg».proof.Proof.KernelCombine
import proofs.«429455_j82042465289181_2_alg».proof.Proof.KernelHost
import proofs.«429455_j82042465289181_2_alg».proof.Proof.Coef
import proofs.«429455_j82042465289181_2_alg».proof.Proof.SoftmaxReal
import proofs.«429455_j82042465289181_2_alg».proof.Proof.PreDecode
import proofs.«429455_j82042465289181_2_alg».proof.Proof.Take
import proofs.«429455_j82042465289181_2_alg».proof.Proof.RefValue
import proofs.«429455_j82042465289181_2_alg».proof.Proof.Gen.Pre_finite_inputs
import proofs.«429455_j82042465289181_2_alg».proof.Proof.Gen.ReferenceIdeal.Read

noncomputable section

namespace Cert.Bridge

open Idealize.ShloMosaic Idealize.ShloMosaic.TcCoe Idealize.SL.Sem Idealize.ShloMosaic.ValueIdx Cert.Logic

variable (m : (ℓ : Loc Cert.KernelIdeal.nD Cert.KernelIdeal.τ Cert.KernelIdeal.sig) → Buf (Elt Ideal) ℓ)

/-- The shared shape relations (any proof of them serves: they are propositions). -/
theorem sf : ShapeFacts := Cert.KernelIdeal.HostSide.sf
theorem tk : TakeFacts := Cert.KernelIdeal.HostSide.tk

/-- The reference's softmax stage is the shared softmax term. -/
theorem ref_softmax (W : (⟨Cert.ReferenceIdeal.S8192x16, .f32⟩ : BufTy).Contents (Elt Ideal)) :
    Cert.ReferenceIdeal.Read.val_main_v24 (F := Ideal) W = softmax (F := Ideal) sf W := rfl

/-- The reference's first gather reads x at the clamped normalised column. -/
theorem ref_gather_a (x : (⟨Cert.ReferenceIdeal.S2048x8192, .f32⟩ : BufTy).Contents (Elt Ideal)) (v : (⟨Cert.ReferenceIdeal.S8192, .i32⟩ : BufTy).Contents (Elt Ideal))
    (r : Fin 2048) (j : Fin 8192) :
    Cert.ReferenceIdeal.Read.val_main_v6 (F := Ideal) x v (ix2 r j) = x (ix2 r (col sf v j)) :=
  takeCols_apply (F := Ideal) sf Cert.ReferenceIdeal.Facts₀.gather_S2048x8192_S8192x1_S2048x8192_0_1_n_n_1_1_20481_wf x v r j

/-- The reference's second gather likewise. -/
theorem ref_gather_b (x : (⟨Cert.ReferenceIdeal.S2048x8192, .f32⟩ : BufTy).Contents (Elt Ideal)) (v : (⟨Cert.ReferenceIdeal.S8192, .i32⟩ : BufTy).Contents (Elt Ideal))
    (r : Fin 2048) (j : Fin 8192) :
    Cert.ReferenceIdeal.Read.val_main_v13 (F := Ideal) x v (ix2 r j) = x (ix2 r (col sf v j)) :=
  takeCols_apply (F := Ideal) sf Cert.ReferenceIdeal.Facts₀.gather_S2048x8192_S8192x1_S2048x8192_0_1_n_n_1_1_20481_wf x v r j

/-- The kernel's combination at row r and neuron j, from the three arrays' entries there. -/
theorem combine_at (A B : Cert.KernelIdeal.S8192x2048.Idx → EReal) (Co : Cert.KernelIdeal.S8192x4.Idx → EReal)
    (r : Fin 2048) (j : Fin 8192) (a b : EReal) (s : Fin 4 → EReal)
    (hA : A (ix2 j r) = a) (hB : B (ix2 j r) = b) (hCo : ∀ q : Fin 4, Co (ix2 j q) = s q) :
    Cert.KernelIdeal.Combine.result (F := Ideal) A B Co (ix2 r j) = ((s 0 * a + s 1 * b) + s 2 * (a * b)) + s 3 := by
  show ((Co (ix2 j (0 : Fin 4)) * A (ix2 j r) + Co (ix2 j (1 : Fin 4)) * B (ix2 j r))
    + Co (ix2 j (2 : Fin 4)) * (A (ix2 j r) * B (ix2 j r))) + Co (ix2 j (3 : Fin 4)) = _
  rw [hCo 0, hCo 1, hCo 2, hCo 3, hA, hB]

/-- Under the precondition the kernel's result array is the reference's result term of the same arguments. -/
theorem result_eq (hpre : Cert.Pre_KernelIdeal m) (c : Dev Cert.KernelIdeal.nD) :
    Cert.KernelIdeal.Combine.result (F := Ideal) (Cert.KernelIdeal.Gen.V m c Cert.KernelIdeal.main_v1) (Cert.KernelIdeal.Gen.V m c Cert.KernelIdeal.main_v2) (Cert.KernelIdeal.Gen.V m c Cert.KernelIdeal.main_v14)
      = Cert.ReferenceIdeal.Read.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  obtain ⟨r, j, rfl⟩ : ∃ (r : Fin 2048) (j : Fin 8192), i = ix2 r j := ⟨i 0, i 1, eq_ix2 i⟩
  obtain ⟨hxr, hWr, hia, hib⟩ := pre_decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)
  have hina : ∀ n : Rv.Idx, IntOp.cmpi .sge (norm sf (m ((c.tc : Thread Cert.KernelIdeal.nD Cert.KernelIdeal.τ).loc Cert.KernelIdeal.main_arg2)) n) 0#32 = 1#1 ∧ IntOp.cmpi .sle (norm sf (m ((c.tc : Thread Cert.KernelIdeal.nD Cert.KernelIdeal.τ).loc Cert.KernelIdeal.main_arg2)) n) 8191#32 = 1#1 :=
    fun n => ⟨(norm_inrange sf (m ((c.tc : Thread Cert.KernelIdeal.nD Cert.KernelIdeal.τ).loc Cert.KernelIdeal.main_arg2)) n (hia n).1 (hia n).2).1, (norm_inrange sf (m ((c.tc : Thread Cert.KernelIdeal.nD Cert.KernelIdeal.τ).loc Cert.KernelIdeal.main_arg2)) n (hia n).1 (hia n).2).2.1⟩
  have hinb : ∀ n : Rv.Idx, IntOp.cmpi .sge (norm sf (m ((c.tc : Thread Cert.KernelIdeal.nD Cert.KernelIdeal.τ).loc Cert.KernelIdeal.main_arg3)) n) 0#32 = 1#1 ∧ IntOp.cmpi .sle (norm sf (m ((c.tc : Thread Cert.KernelIdeal.nD Cert.KernelIdeal.τ).loc Cert.KernelIdeal.main_arg3)) n) 8191#32 = 1#1 :=
    fun n => ⟨(norm_inrange sf (m ((c.tc : Thread Cert.KernelIdeal.nD Cert.KernelIdeal.τ).loc Cert.KernelIdeal.main_arg3)) n (hib n).1 (hib n).2).1, (norm_inrange sf (m ((c.tc : Thread Cert.KernelIdeal.nD Cert.KernelIdeal.τ).loc Cert.KernelIdeal.main_arg3)) n (hib n).1 (hib n).2).2.1⟩
  obtain ⟨ar, har⟩ := hxr (ix2 r (col sf (m ((c.tc : Thread Cert.KernelIdeal.nD Cert.KernelIdeal.τ).loc Cert.KernelIdeal.main_arg2)) j))
  obtain ⟨br, hbr⟩ := hxr (ix2 r (col sf (m ((c.tc : Thread Cert.KernelIdeal.nD Cert.KernelIdeal.τ).loc Cert.KernelIdeal.main_arg3)) j))
  choose wr hwr using fun k : Fin 16 => softmax_real sf (m ((c.tc : Thread Cert.KernelIdeal.nD Cert.KernelIdeal.τ).loc Cert.KernelIdeal.main_arg1)) hWr (ix2 j k)
  -- the kernel's three arrays at this neuron and row
  have hA : (Cert.KernelIdeal.Gen.V m c Cert.KernelIdeal.main_v1) (ix2 j r) = (ar : EReal) :=
    (congrFun (Cert.KernelIdeal.HostSide.V_v1 m c) (ix2 j r)).trans
      ((take_transpose_apply (F := Ideal) sf tk Cert.KernelIdeal.Facts₀.transposes_S2048x8192_S8192x2048_1_0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) hina j r).trans har)
  have hB : (Cert.KernelIdeal.Gen.V m c Cert.KernelIdeal.main_v2) (ix2 j r) = (br : EReal) :=
    (congrFun (Cert.KernelIdeal.HostSide.V_v2 m c) (ix2 j r)).trans
      ((take_transpose_apply (F := Ideal) sf tk Cert.KernelIdeal.Facts₀.transposes_S2048x8192_S8192x2048_1_0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) hinb j r).trans hbr)
  have hCo : ∀ q : Fin 4, (Cert.KernelIdeal.Gen.V m c Cert.KernelIdeal.main_v14) (ix2 j q) = ∑ k : Fin 16, ((wr k : ℝ) : EReal) * Cert.KernelIdeal.Coef.T k q := fun q =>
    (congrFun (Cert.KernelIdeal.HostSide.V_v14 m c) (ix2 j q)).trans
      ((Cert.KernelIdeal.Coef.contract_apply _ _ j q).trans (Finset.sum_congr rfl fun k _ => by rw [hwr k]; rfl))
  -- the reference's result at this row and neuron
  have hR : Cert.ReferenceIdeal.Read.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ix2 r j)
      = Cert.ReferenceIdeal.RefValue.gates (fun k => ((wr k : ℝ) : EReal)) (ar : EReal) (br : EReal) := by
    rw [Cert.ReferenceIdeal.RefValue.ref_apply, ref_gather_a, ref_gather_b, har, hbr]
    congr 1
    funext k
    rw [ref_softmax]
    exact hwr k
  rw [hR, Cert.ReferenceIdeal.RefValue.gates_collapse]
  exact (combine_at (Cert.KernelIdeal.Gen.V m c Cert.KernelIdeal.main_v1) (Cert.KernelIdeal.Gen.V m c Cert.KernelIdeal.main_v2) (Cert.KernelIdeal.Gen.V m c Cert.KernelIdeal.main_v14) r j (ar : EReal) (br : EReal)
    (fun q => ∑ k : Fin 16, ((wr k : ℝ) : EReal) * Cert.KernelIdeal.Coef.T k q) hA hB hCo).trans (Cert.KernelIdeal.Coef.kernel_collapse wr ar br)

end Cert.Bridge

end
-- ==== Proof.lean ====
/-
  LogicLayer: out (r, j) = sum over the sixteen two-input gates k of softmax (weights) (j, k) * gate_k (a, b),
  with a = x (r, idx_a j), b = x (r, idx_b j).
  Every gate's real-valued relaxation is affine in (a, b, a * b), so the sum collapses to A a + B b + C (a b) + D with
  (A, B, C, D) = softmax (weights) (j, .) contracted with a fixed 16 x 4 table: that is what the kernel computes, on the
  transposed layout, writing transposed blocks back. Both programs normalise a negative index by adding 8192; the kernel's
  take then fills rows whose index is out of [0, 8191], where the reference's gather clamps, so the two agree exactly on
  indices in [-8192, 8191], the range the precondition states (beside finite x and weights). On that domain x's entries and
  the softmax's entries are real numbers and the collapse is an identity of real polynomials.
  The frames of the two kernel programs and the reference's run are the generated ones; `preserves` has no entry.
-/
import proofs.«429455_j82042465289181_2_alg».proof.Defs
import proofs.«429455_j82042465289181_2_alg».proof.Proof.Gen.Kernel
import proofs.«429455_j82042465289181_2_alg».proof.Proof.Gen.Kernel.Skeleton
import proofs.«429455_j82042465289181_2_alg».proof.Proof.Gen.Kernel.Launch
import proofs.«429455_j82042465289181_2_alg».proof.Proof.Gen.Kernel.Points
import proofs.«429455_j82042465289181_2_alg».proof.Proof.Gen.Kernel.Frame
import proofs.«429455_j82042465289181_2_alg».proof.Proof.Gen.KernelIdeal
import proofs.«429455_j82042465289181_2_alg».proof.Proof.Gen.KernelIdeal.Skeleton
import proofs.«429455_j82042465289181_2_alg».proof.Proof.Gen.KernelIdeal.Launch
import proofs.«429455_j82042465289181_2_alg».proof.Proof.Gen.KernelIdeal.Points
import proofs.«429455_j82042465289181_2_alg».proof.Proof.Gen.KernelIdeal.Frame
import proofs.«429455_j82042465289181_2_alg».proof.Proof.Gen.ReferenceIdeal
import proofs.«429455_j82042465289181_2_alg».proof.Proof.Gen.Pre_finite_inputs
import proofs.«429455_j82042465289181_2_alg».proof.Proof.Gen.KernelIdeal.Value
import proofs.«429455_j82042465289181_2_alg».proof.Proof.Gen.ReferenceIdeal.Run
import proofs.«429455_j82042465289181_2_alg».proof.Proof.Gen.ReferenceIdeal.Read
import proofs.«429455_j82042465289181_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel's result array, the combination of the arrays its region finds,
    is the reference's result term of the same arguments. -/
theorem algebraic : Cert.algebraic_KernelIdeal_ReferenceIdeal := by
  intro m ρ m' ρ' hpre hagree
  refine ⟨fun c => Cert.KernelIdeal.Combine.result (F := Ideal) (Cert.KernelIdeal.Gen.V m c Cert.KernelIdeal.main_v1)
      (Cert.KernelIdeal.Gen.V m c Cert.KernelIdeal.main_v2) (Cert.KernelIdeal.Gen.V m c Cert.KernelIdeal.main_v14),
    Cert.KernelIdeal.Combine.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v154_eq, (hagree c).1, (hagree c).2.1, (hagree c).2.2.1, (hagree c).2.2.2]
  exact (Cert.Bridge.result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
